-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x1 : Shape := ⟨2, ![64, 1]⟩
abbrev S64 : Shape := ⟨1, ![64]⟩
abbrev S1x64 : Shape := ⟨2, ![1, 64]⟩
abbrev S1 : Shape := ⟨1, ![1]⟩
abbrev S4096x64 : Shape := ⟨2, ![4096, 64]⟩
abbrev S8192x64 : Shape := ⟨2, ![8192, 64]⟩
abbrev S4096x8192 : Shape := ⟨2, ![4096, 8192]⟩
abbrev S8192x4096 : Shape := ⟨2, ![8192, 4096]⟩
abbrev S2x1250000 : Shape := ⟨2, ![2, 1250000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S4096x64 : S_.BroadcastsInDim S4096x64 (![] : Fin 0 → Fin S4096x64.rank)
  reducesTo_S4096x64_S_d0_1 : S4096x64.ReducesTo [0, 1] S_
  bcast_S_S8192x64 : S_.BroadcastsInDim S8192x64 (![] : Fin 0 → Fin S8192x64.rank)
  reducesTo_S8192x64_S_d0_1 : S8192x64.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn_part2 {F : FTy → Type} [FloatOps F] (main_arg7 : FVec F S4096x8192 .f32) (main_arg8 : FVec F S8192x4096 .f32) (main_v33 : IVec S_ 1) : IVec S_ 1 :=
  let main_v34 : FVec F S4096x8192 .f32 := Host.absf main_arg7
  let main_cst_12 : FVec F S_ .f32 := constant S_ .f32 0x7F800000#32
  let main_v35 : FVec F S4096x8192 .f32 := broadcastInDim S4096x8192 ![] bcast_S_S4096x8192 main_cst_12
  let main_v36 : IVec S4096x8192 1 := cmpf .olt main_v34 main_v35
  let main_c_13 : IVec S_ 1 := constantI S_ 1 1#1
  let main_v37 : IVec S_ 1 := (fun x v => Host.reduce IntOp.andi x v reducesTo_S4096x8192_S_d0_1 h_S_) main_v36 main_c_13
  let main_v38 : IVec S_ 1 := andi main_v33 main_v37
  let main_v39 : FVec F S8192x4096 .f32 := Host.absf main_arg8
  let main_cst_14 : FVec F S_ .f32 := constant S_ .f32 0x7F800000#32
  let main_v40 : FVec F S8192x4096 .f32 := broadcastInDim S8192x4096 ![] bcast_S_S8192x4096 main_cst_14
  let main_v41 : IVec S8192x4096 1 := cmpf .olt main_v39 main_v40
  let main_c_15 : IVec S_ 1 := constantI S_ 1 1#1
  let main_v42 : IVec S_ 1 := (fun x v => Host.reduce IntOp.andi x v reducesTo_S8192x4096_S_d0_1 h_S_) main_v41 main_c_15
  let main_v43 : IVec S_ 1 := andi main_v38 main_v42
  main_v43

def fn_part1 {F : FTy → Type} [FloatOps F] (main_arg4 : FVec F S1 .f32) (main_arg5 : FVec F S4096x64 .f32) (main_arg6 : FVec F S8192x64 .f32) (main_arg7 : FVec F S4096x8192 .f32) (main_arg8 : FVec F S8192x4096 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S4096x64 .f32 := Host.absf main_arg5
  let main_cst_8 : FVec F S_ .f32 := constant S_ .f32 0x7F800000#32
  let main_v25 : FVec F S4096x64 .f32 := broadcastInDim S4096x64 ![] bcast_S_S4096x64 main_cst_8
  let main_v26 : IVec S4096x64 1 := cmpf .olt main_v24 main_v25
  let main_c_9 : IVec S_ 1 := constantI S_ 1 1#1
  let main_v27 : IVec S_ 1 := (fun x v => Host.reduce IntOp.andi x v reducesTo_S4096x64_S_d0_1 h_S_) main_v26 main_c_9
  let main_v28 : IVec S_ 1 := andi main_v23 main_v27
  let main_v29 : FVec F S8192x64 .f32 := Host.absf main_arg6
  let main_cst_10 : FVec F S_ .f32 := constant S_ .f32 0x7F800000#32
  let main_v30 : FVec F S8192x64 .f32 := broadcastInDim S8192x64 ![] bcast_S_S8192x64 main_cst_10
  let main_v31 : IVec S8192x64 1 := cmpf .olt main_v29 main_v30
  let main_c_11 : IVec S_ 1 := constantI S_ 1 1#1
  let main_v32 : IVec S_ 1 := (fun x v => Host.reduce IntOp.andi x v reducesTo_S8192x64_S_d0_1 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S64x1 .f32) (main_arg2 : FVec F S64 .f32) (main_arg3 : FVec F S1x64 .f32) (main_arg4 : FVec F S1 .f32) (main_arg5 : FVec F S4096x64 .f32) (main_arg6 : FVec F S8192x64 .f32) (main_arg7 : FVec F S4096x8192 .f32) (main_arg8 : FVec F S8192x4096 .f32) (main_arg9 : IVec S2x1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_v13 main_v16
-- ==== Kernel.lean ====
abbrev S100000x64 : Shape := ⟨2, ![100000, 64]⟩
abbrev S64x1 : Shape := ⟨2, ![64, 1]⟩
abbrev S64 : Shape := ⟨1, ![64]⟩
abbrev S1x64 : Shape := ⟨2, ![1, 64]⟩
abbrev S1 : Shape := ⟨1, ![1]⟩
abbrev S4096x64 : Shape := ⟨2, ![4096, 64]⟩
abbrev S8192x64 : Shape := ⟨2, ![8192, 64]⟩
abbrev S4096x8192 : Shape := ⟨2, ![4096, 8192]⟩
abbrev S8192x4096 : Shape := ⟨2, ![8192, 4096]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x1 : Shape := ⟨2, ![1, 1]⟩
abbrev S10000x64 : Shape := ⟨2, ![10000, 64]⟩
abbrev S10000 : Shape := ⟨1, ![10000]⟩
abbrev S10000x1 : Shape := ⟨2, ![10000, 1]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S64x8192 : Shape := ⟨2, ![64, 8192]⟩
abbrev S128x64 : Shape := ⟨2, ![128, 64]⟩
abbrev S128x8192 : Shape := ⟨2, ![128, 8192]⟩
abbrev S128 : Shape := ⟨1, ![128]⟩
abbrev S128x1 : Shape := ⟨2, ![128, 1]⟩
abbrev S64x4096 : Shape := ⟨2, ![64, 4096]⟩
abbrev S128x4096 : Shape := ⟨2, ![128, 4096]⟩

abbrev nBuf : Space → Nat
  | .hbm => 91
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S64x1, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S4096x64, .f32⟩
  | .hbm, ⟨6, _⟩ => ⟨S8192x64, .f32⟩
  | .hbm, ⟨7, _⟩ => ⟨S4096x8192, .f32⟩
  | .hbm, ⟨8, _⟩ => ⟨S8192x4096, .f32⟩
  | .hbm, ⟨9, _⟩ => ⟨S2x1250000, .i32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .i32⟩
  | .hbm, ⟨24, _⟩ => ⟨S1250000, .i32⟩
  | .hbm, ⟨25, _⟩ => ⟨S1250000, .i1⟩
  | .hbm, ⟨26, _⟩ => ⟨S_, .i32⟩
  | .hbm, ⟨27, _⟩ => ⟨S1250000, .i32⟩
  | .hbm, ⟨28, _⟩ => ⟨S1250000, .i32⟩
  | .hbm, ⟨29, _⟩ => ⟨S1250000, .i32⟩
  | .hbm, ⟨30, _⟩ => ⟨S1250000x1, .i32⟩
  | .hbm, ⟨31, _⟩ => ⟨S1250000x64, .f32⟩
  | .hbm, ⟨32, _⟩ => ⟨S1250000x64, .f32⟩
  | .hbm, ⟨33, _⟩ => ⟨S1x64, .f32⟩
  | .hbm, ⟨34, _⟩ => ⟨S1x64, .f32⟩
  | .hbm, ⟨35, _⟩ => ⟨S1x1, .f32⟩
  | .hbm, ⟨36, _⟩ => ⟨S1250000x64, .f32⟩
  | .hbm, ⟨37, _⟩ => ⟨S_, .f32⟩
  | .hbm, ⟨38, _⟩ => ⟨S100000x64, .f32⟩
  | .hbm, ⟨39, _⟩ => ⟨S1250000x1, .i32⟩
  | .hbm, ⟨40, _⟩ => ⟨S100000x64, .f32⟩
  | .hbm, ⟨41, _⟩ => ⟨S4096x64, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x64, .f32⟩
  | .hbm, ⟨50, _⟩ => ⟨S4096x64, .f32⟩
  | .hbm, ⟨51, _⟩ => ⟨S4096x64, .bf16⟩
  | .hbm, ⟨52, _⟩ => ⟨S8192x64, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x64, .f32⟩
  | .hbm, ⟨61, _⟩ => ⟨S8192x64, .f32⟩
  | .hbm, ⟨62, _⟩ => ⟨S64x8192, .f32⟩
  | .hbm, ⟨63, _⟩ => ⟨S64x8192, .bf16⟩
  | .hbm, ⟨64, _⟩ => ⟨S8192x64, .bf16⟩
  | .hbm, ⟨65, _⟩ => ⟨S4096x64, .f32⟩
  | .hbm, ⟨66, _⟩ => ⟨S8192x64, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x64, .f32⟩
  | .hbm, ⟨75, _⟩ => ⟨S8192x64, .f32⟩
  | .hbm, ⟨76, _⟩ => ⟨S8192x64, .bf16⟩
  | .hbm, ⟨77, _⟩ => ⟨S4096x64, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S4096x64, .f32⟩
  | .hbm, ⟨86, _⟩ => ⟨S4096x64, .f32⟩
  | .hbm, ⟨87, _⟩ => ⟨S64x4096, .f32⟩
  | .hbm, ⟨88, _⟩ => ⟨S64x4096, .bf16⟩
  | .hbm, ⟨89, _⟩ => ⟨S4096x64, .bf16⟩
  | .hbm, ⟨90, _⟩ => ⟨S8192x64, .f32⟩
  | .local _ .vmem, ⟨0, _⟩ => ⟨S10000x64, .f32⟩
  | .local _ .vmem, ⟨1, _⟩ => ⟨S10000x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S10000x64, .f32⟩
  | .local _ .vmem, ⟨7, _⟩ => ⟨S10000x64, .f32⟩
  | .local _ .vmem, ⟨8, _⟩ => ⟨S128x64, .bf16⟩
  | .local _ .vmem, ⟨9, _⟩ => ⟨S128x64, .bf16⟩
  | .local _ .vmem, ⟨10, _⟩ => ⟨S64x8192, .bf16⟩
  | .local _ .vmem, ⟨11, _⟩ => ⟨S8192x64, .bf16⟩
  | .local _ .vmem, ⟨12, _⟩ => ⟨S128x8192, .f32⟩
  | .local _ .vmem, ⟨13, _⟩ => ⟨S128x8192, .f32⟩
  | .local _ .vmem, ⟨14, _⟩ => ⟨S128x64, .f32⟩
  | .local _ .vmem, ⟨15, _⟩ => ⟨S128x64, .f32⟩
  | .local _ .vmem, ⟨16, _⟩ => ⟨S128x64, .bf16⟩
  | .local _ .vmem, ⟨17, _⟩ => ⟨S128x64, .bf16⟩
  | .local _ .vmem, ⟨18, _⟩ => ⟨S64x4096, .bf16⟩
  | .local _ .vmem, ⟨19, _⟩ => ⟨S4096x64, .bf16⟩
  | .local _ .vmem, ⟨20, _⟩ => ⟨S128x4096, .f32⟩
  | .local _ .vmem, ⟨21, _⟩ => ⟨S128x4096, .f32⟩
  | .local _ .vmem, ⟨22, _⟩ => ⟨S128x64, .f32⟩
  | .local _ .vmem, ⟨23, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_call2_v2 : Ref sig .tc := ⟨.hbm, 69, rfl⟩
abbrev main_v41 : Ref sig .tc := ⟨.hbm, 70, rfl⟩
abbrev main_cst_5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call3_v0 : Ref sig .tc := ⟨.hbm, 77, rfl⟩
abbrev main_call3_cst : Ref sig .tc := ⟨.hbm, 78, rfl⟩
abbrev main_call3_v1 : Ref sig .tc := ⟨.hbm, 79, rfl⟩
abbrev main_call3_v2 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  transposes_S64x1_S1x64_1_0 : S64x1.Transposes [1, 0] S1x64
  shapeCasts_S64_S1x64 : S64.ShapeCasts S1x64
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  bcast_S_S100000x64 : S_.BroadcastsInDim S100000x64 (![] : Fin 0 → Fin S100000x64.rank)
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  bitsLt_bf16_f32 : FTy.bits .bf16 < FTy.bits .f32
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  transposes_S4096x64_S64x4096_1_0 : S4096x64.Transposes [1, 0] S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  broadcasts_S128x1_S128x4096 : S128x1.Broadcasts S128x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S128x64_S64x8192_S128x8192_1_0_0_1_n_n_wf : DotDims.WF S128x64 S64x8192 S128x8192 [1] [0] [0] [1] [] []
  dot_S128x8192_S8192x64_S128x64_1_0_0_1_n_n_wf : DotDims.WF S128x8192 S8192x64 S128x64 [1] [0] [0] [1] [] []
  dot_S128x64_S64x4096_S128x4096_1_0_0_1_n_n_wf : DotDims.WF S128x64 S64x4096 S128x4096 [1] [0] [0] [1] [] []
  dot_S128x4096_S4096x64_S128x64_1_0_0_1_n_n_wf : DotDims.WF S128x4096 S4096x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1250000x64.size a
  hwx0_5 : ∀ i : grid0.Coords, EltTy.bits .f32 = 32 ∨ (Rect.block (s := S1250000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S4096x64.size a
  hwx1_0 : ∀ i : grid1.Coords, EltTy.bits .bf16 = 32 ∨ (Rect.block (s := S4096x64) S128x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8192.size a ≤ S64x8192.size a
  hwx1_1 : ∀ i : grid1.Coords, EltTy.bits .bf16 = 32 ∨ (Rect.block (s := S64x8192) S64x8192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .bf16 = 32 ∨ (Rect.block (s := S8192x64) S8192x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S4096x8192.size a
  hwx1_3 : ∀ i : grid1.Coords, EltTy.bits .f32 = 32 ∨ (Rect.block (s := S4096x8192) S128x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S4096x64.size a
  hwx1_4 : ∀ i : grid1.Coords, EltTy.bits .f32 = 32 ∨ (Rect.block (s := S4096x64) S128x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x64.size a ≤ S8192x64.size a
  hwx2_0 : ∀ i : grid2.Coords, EltTy.bits .bf16 = 32 ∨ (Rect.block (s := S8192x64) S128x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x4096.size a ≤ S64x4096.size a
  hwx2_1 : ∀ i : grid2.Coords, EltTy.bits .bf16 = 32 ∨ (Rect.block (s := S64x4096) S64x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S4096x64.size a
  hwx2_2 : ∀ i : grid2.Coords, EltTy.bits .bf16 = 32 ∨ (Rect.block (s := S4096x64) S4096x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x4096.size a ≤ S8192x4096.size a
  hwx2_3 : ∀ i : grid2.Coords, EltTy.bits .f32 = 32 ∨ (Rect.block (s := S8192x4096) S128x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S8192x64.size a
  hwx2_4 : ∀ i : grid2.Coords, EltTy.bits .f32 = 32 ∨ (Rect.block (s := S8192x64) S128x64.size (cc2_transform_4 i) (hinb2_4 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf
def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf

abbrev win0_0 : Pipeline.Window sig grid0 :=
  Pipeline.Window.ofSpec (Memref.whole main_v18) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S64x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x8192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S128x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S64x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S4096x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v55) S128x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x1 : Shape := ⟨2, ![64, 1]⟩
abbrev S64 : Shape := ⟨1, ![64]⟩
abbrev S1x64 : Shape := ⟨2, ![1, 64]⟩
abbrev S1 : Shape := ⟨1, ![1]⟩
abbrev S4096x64 : Shape := ⟨2, ![4096, 64]⟩
abbrev S8192x64 : Shape := ⟨2, ![8192, 64]⟩
abbrev S4096x8192 : Shape := ⟨2, ![4096, 8192]⟩
abbrev S8192x4096 : Shape := ⟨2, ![8192, 4096]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x1 : Shape := ⟨2, ![1, 1]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S64x8192 : Shape := ⟨2, ![64, 8192]⟩
abbrev S64x4096 : Shape := ⟨2, ![64, 4096]⟩

abbrev nBuf : Space → Nat
  | .hbm => 157
  | .vmem => 0
  | .smem => 0
  | _ => 0

abbrev hbmTy0_0 (i : Nat) : BufTy := match i % 128 with
  | 0 => ⟨S100000x64, .f32⟩
  | 1 => ⟨S64x1, .f32⟩
  | 2 => ⟨S64, .f32⟩
  | 3 => ⟨S1x64, .f32⟩
  | 4 => ⟨S1, .f32⟩
  | 5 => ⟨S4096x64, .f32⟩
  | 6 => ⟨S8192x64, .f32⟩
  | 7 => ⟨S4096x8192, .f32⟩
  | 8 => ⟨S8192x4096, .f32⟩
  | 9 => ⟨S2x1250000, .i32⟩
  | 10 => ⟨S1x1250000, .i32⟩
  | 11 => ⟨S1250000, .i32⟩
  | 12 => ⟨S1x1250000, .i32⟩
  | 13 => ⟨S1250000, .i32⟩
  | 14 => ⟨S_, .i32⟩
  | 15 => ⟨S1250000, .i32⟩
  | 16 => ⟨S1250000, .i1⟩
  | 17 => ⟨S_, .i32⟩
  | 18 => ⟨S1250000, .i32⟩
  | 19 => ⟨S1250000, .i32⟩
  | 20 => ⟨S1250000, .i32⟩
  | 21 => ⟨S1250000x1, .i32⟩
  | 22 => ⟨S1250000x64, .f32⟩
  | 23 => ⟨S_, .i32⟩
  | 24 => ⟨S1250000, .i32⟩
  | 25 => ⟨S1250000, .i1⟩
  | 26 => ⟨S_, .i32⟩
  | 27 => ⟨S1250000, .i32⟩
  | 28 => ⟨S1250000, .i32⟩
  | 29 => ⟨S1250000, .i32⟩
  | 30 => ⟨S1250000x1, .i32⟩
  | 31 => ⟨S1250000x64, .f32⟩
  | 32 => ⟨S1250000x64, .f32⟩
  | 33 => ⟨S_, .f32⟩
  | 34 => ⟨S1250000, .f32⟩
  | 35 => ⟨S1250000x1, .f32⟩
  | 36 => ⟨S_, .f32⟩
  | 37 => ⟨S1250000x1, .f32⟩
  | 38 => ⟨S1250000x1, .f32⟩
  | 39 => ⟨S1x64, .f32⟩
  | 40 => ⟨S1250000x64, .f32⟩
  | 41 => ⟨S1x64, .f32⟩
  | 42 => ⟨S1250000x64, .f32⟩
  | 43 => ⟨S1250000x64, .f32⟩
  | 44 => ⟨S_, .f32⟩
  | 45 => ⟨S1250000x64, .f32⟩
  | 46 => ⟨S1250000x64, .f32⟩
  | 47 => ⟨S64x1, .f32⟩
  | 48 => ⟨S1250000x1, .f32⟩
  | 49 => ⟨S1x1, .f32⟩
  | 50 => ⟨S1250000x1, .f32⟩
  | 51 => ⟨S1250000x1, .f32⟩
  | 52 => ⟨S1250000x1, .f32⟩
  | 53 => ⟨S1250000x1, .f32⟩
  | 54 => ⟨S_, .f32⟩
  | 55 => ⟨S1250000x1, .f32⟩
  | 56 => ⟨S1250000x1, .f32⟩
  | 57 => ⟨S_, .f32⟩
  | 58 => ⟨S1250000x1, .f32⟩
  | 59 => ⟨S1250000x1, .f32⟩
  | 60 => ⟨S1250000x64, .f32⟩
  | 61 => ⟨S1250000x64, .f32⟩
  | 62 => ⟨S1250000x64, .f32⟩
  | 63 => ⟨S_, .f32⟩
  | 64 => ⟨S100000x64, .f32⟩
  | 65 => ⟨S1250000x1, .i32⟩
  | 66 => ⟨S100000x64, .f32⟩
  | 67 => ⟨S4096x64, .f32⟩
  | 68 => ⟨S_, .f32⟩
  | 69 => ⟨S4096, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x64, .f32⟩
  | 76 => ⟨S4096x64, .f32⟩
  | 77 => ⟨S8192x64, .f32⟩
  | 78 => ⟨S_, .f32⟩
  | 79 => ⟨S8192, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x64, .f32⟩
  | 86 => ⟨S8192x64, .f32⟩
  | 87 => ⟨S64x8192, .f32⟩
  | 88 => ⟨S4096x8192, .f32⟩
  | 89 => ⟨S4096x8192, .f32⟩
  | 90 => ⟨S_, .f32⟩
  | 91 => ⟨S4096x8192, .f32⟩
  | 92 => ⟨S4096x8192, .i1⟩
  | 93 => ⟨S_, .f32⟩
  | 94 => ⟨S_, .f32⟩
  | 95 => ⟨S4096x8192, .f32⟩
  | 96 => ⟨S4096x8192, .f32⟩
  | 97 => ⟨S_, .f32⟩
  | 98 => ⟨S4096, .f32⟩
  | 99 => ⟨S_, .f32⟩
  | 100 => ⟨S4096, .f32⟩
  | 101 => ⟨S4096, .f32⟩
  | 102 => ⟨S4096x1, .f32⟩
  | 103 => ⟨S4096x8192, .f32⟩
  | 104 => ⟨S4096x8192, .f32⟩
  | 105 => ⟨S4096x8192, .f32⟩
  | 106 => ⟨S_, .f32⟩
  | 107 => ⟨S4096, .f32⟩
  | 108 => ⟨S4096x1, .f32⟩
  | 109 => ⟨S4096x8192, .f32⟩
  | 110 => ⟨S4096x8192, .f32⟩
  | 111 => ⟨S4096x64, .f32⟩
  | 112 => ⟨S8192x64, .f32⟩
  | 113 => ⟨S_, .f32⟩
  | 114 => ⟨S8192, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x64, .f32⟩
  | 121 => ⟨S8192x64, .f32⟩
  | 122 => ⟨S4096x64, .f32⟩
  | 123 => ⟨S_, .f32⟩
  | 124 => ⟨S4096, .f32⟩
  | 125 => ⟨S4096x1, .f32⟩
  | 126 => ⟨S4096x1, .f32⟩
  | 127 => ⟨S_, .f32⟩
  | _ => ⟨S100000x64, .f32⟩

abbrev hbmTy0_1 (i : Nat) : BufTy := match i % 128 with
  | 0 => ⟨S4096x1, .f32⟩
  | 1 => ⟨S4096x1, .f32⟩
  | 2 => ⟨S4096x64, .f32⟩
  | 3 => ⟨S4096x64, .f32⟩
  | 4 => ⟨S64x4096, .f32⟩
  | 5 => ⟨S8192x4096, .f32⟩
  | 6 => ⟨S8192x4096, .f32⟩
  | 7 => ⟨S_, .f32⟩
  | 8 => ⟨S8192x4096, .f32⟩
  | 9 => ⟨S8192x4096, .i1⟩
  | 10 => ⟨S_, .f32⟩
  | 11 => ⟨S_, .f32⟩
  | 12 => ⟨S8192x4096, .f32⟩
  | 13 => ⟨S8192x4096, .f32⟩
  | 14 => ⟨S_, .f32⟩
  | 15 => ⟨S8192, .f32⟩
  | 16 => ⟨S_, .f32⟩
  | 17 => ⟨S8192, .f32⟩
  | 18 => ⟨S8192, .f32⟩
  | 19 => ⟨S8192x1, .f32⟩
  | 20 => ⟨S8192x4096, .f32⟩
  | 21 => ⟨S8192x4096, .f32⟩
  | 22 => ⟨S8192x4096, .f32⟩
  | 23 => ⟨S_, .f32⟩
  | 24 => ⟨S8192, .f32⟩
  | 25 => ⟨S8192x1, .f32⟩
  | 26 => ⟨S8192x4096, .f32⟩
  | 27 => ⟨S8192x4096, .f32⟩
  | 28 => ⟨S8192x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_v0 : Ref sig .tc := ⟨.hbm, 67, rfl⟩
abbrev main_call1_cst : Ref sig .tc := ⟨.hbm, 68, rfl⟩
abbrev main_call1_v1 : Ref sig .tc := ⟨.hbm, 69, rfl⟩
abbrev main_call1_v2 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call2_v0 : Ref sig .tc := ⟨.hbm, 77, rfl⟩
abbrev main_call2_cst : Ref sig .tc := ⟨.hbm, 78, rfl⟩
abbrev main_call2_v1 : Ref sig .tc := ⟨.hbm, 79, rfl⟩
abbrev main_call2_v2 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_call3_v0 : Ref sig .tc := ⟨.hbm, 94, rfl⟩
abbrev main_call3_v1 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_13 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call4_v0 : Ref sig .tc := ⟨.hbm, 112, rfl⟩
abbrev main_call4_cst : Ref sig .tc := ⟨.hbm, 113, rfl⟩
abbrev main_call4_v1 : Ref sig .tc := ⟨.hbm, 114, rfl⟩
abbrev main_call4_v2 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_call5_v0 : Ref sig .tc := ⟨.hbm, 122, rfl⟩
abbrev main_call5_cst : Ref sig .tc := ⟨.hbm, 123, rfl⟩
abbrev main_call5_v1 : Ref sig .tc := ⟨.hbm, 124, rfl⟩
abbrev main_call5_v2 : Ref sig .tc := ⟨.hbm, 125, rfl⟩
abbrev main_v79 : Ref sig .tc := ⟨.hbm, 126, rfl⟩
abbrev main_cst_15 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_16 : Ref sig .tc := ⟨.hbm, 135, rfl⟩
abbrev main_v87 : Ref sig .tc := ⟨.hbm, 136, rfl⟩
abbrev main_v88 : Ref sig .tc := ⟨.hbm, 137, rfl⟩
abbrev main_cst_17 : Ref sig .tc := ⟨.hbm, 138, rfl⟩
abbrev main_call6_v0 : Ref sig .tc := ⟨.hbm, 139, rfl⟩
abbrev main_call6_v1 : Ref sig .tc := ⟨.hbm, 140, rfl⟩
abbrev main_v89 : Ref sig .tc := ⟨.hbm, 141, rfl⟩
abbrev main_cst_18 : Ref sig .tc := ⟨.hbm, 142, rfl⟩
abbrev main_v90 : Ref sig .tc := ⟨.hbm, 143, rfl⟩
abbrev main_cst_19 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_20 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  reducesTo_S1250000x64_S1250000_d1 : S1250000x64.ReducesTo [1] S1250000
  h_S_ : 0 < S_.numel
  bcast_S_S1250000x1 : S_.BroadcastsInDim S1250000x1 (![] : Fin 0 → Fin S1250000x1.rank)
  transposes_S64x1_S1x64_1_0 : S64x1.Transposes [1, 0] S1x64
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S1250000x64 : S_.BroadcastsInDim S1250000x64 (![] : Fin 0 → Fin S1250000x64.rank)
  transposes_S1x64_S64x1_1_0 : S1x64.Transposes [1, 0] S64x1
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  reducesTo_S4096x64_S4096_d1 : S4096x64.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S4096x8192 : S_.BroadcastsInDim S4096x8192 (![] : Fin 0 → Fin S4096x8192.rank)
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  transposes_S4096x64_S64x4096_1_0 : S4096x64.Transposes [1, 0] S64x4096
  bcast_S_S8192x4096 : S_.BroadcastsInDim S8192x4096 (![] : Fin 0 → Fin S8192x4096.rank)
  reducesTo_S8192x4096_S8192_d1 : S8192x4096.ReducesTo [1] S8192
  bcast_S_S8192 : S_.BroadcastsInDim S8192 (![] : Fin 0 → Fin S8192.rank)
  bcast_S8192x1_S8192x4096_0_1 : S8192x1.BroadcastsInDim S8192x4096 (![0, 1] : Fin 2 → Fin S8192x4096.rank)
  gather_S100000x64_S1250000x1_S1250000x64_1_0_n_n_0_1_164_wf : GatherDims.WF S100000x64 S1250000x1 S1250000x64 [1] [0] [] [0] [] 1 ![1, 64]
  dot_S1250000x1_S1x64_S1250000x64_1_0_0_1_n_n_wf : DotDims.WF S1250000x1 S1x64 S1250000x64 [1] [0] [0] [1] [] []
  dot_S1250000x64_S64x1_S1250000x1_1_0_0_1_n_n_wf : DotDims.WF S1250000x64 S64x1 S1250000x1 [1] [0] [0] [1] [] []
  scatter_S100000x64_S1250000x1_S1250000x64_1_0_0_1_wf : ScatterDims.WF S100000x64 S1250000x1 S1250000x64 [1] [0] [0] 1
  dot_S4096x64_S64x8192_S4096x8192_1_0_0_1_n_n_wf : DotDims.WF S4096x64 S64x8192 S4096x8192 [1] [0] [0] [1] [] []
  dot_S4096x8192_S8192x64_S4096x64_1_0_0_1_n_n_wf : DotDims.WF S4096x8192 S8192x64 S4096x64 [1] [0] [0] [1] [] []
  dot_S8192x64_S64x4096_S8192x4096_1_0_0_1_n_n_wf : DotDims.WF S8192x64 S64x4096 S8192x4096 [1] [0] [0] [1] [] []
  dot_S8192x4096_S4096x64_S8192x64_1_0_0_1_n_n_wf : DotDims.WF S8192x4096 S4096x64 S8192x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x1_S1x64_S1250000x64_1_0_0_1_n_n : DotDims S1250000x1 S1x64 S1250000x64 where
  lhsContracting := [1]
  rhsContracting := [0]
  lhsNonContracting := [0]
  rhsNonContracting := [1]
  lhsBatch := []
  rhsBatch := []
  wf := dot_S1250000x1_S1x64_S1250000x64_1_0_0_1_n_n_wf
def dot_S1250000x64_S64x1_S1250000x1_1_0_0_1_n_n : DotDims S1250000x64 S64x1 S1250000x1 where
  lhsContracting := [1]
  rhsContracting := [0]
  lhsNonContracting := [0]
  rhsNonContracting := [1]
  lhsBatch := []
  rhsBatch := []
  wf := dot_S1250000x64_S64x1_S1250000x1_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S4096x64_S64x8192_S4096x8192_1_0_0_1_n_n : DotDims S4096x64 S64x8192 S4096x8192 where
  lhsContracting := [1]
  rhsContracting := [0]
  lhsNonContracting := [0]
  rhsNonContracting := [1]
  lhsBatch := []
  rhsBatch := []
  wf := dot_S4096x64_S64x8192_S4096x8192_1_0_0_1_n_n_wf
def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.EntryLib.lean ====
/-
  Reading a buffer through the plain array operations that run between the program's regions.

  The operations between two regions form several stretches applied one after the other; applied at once they are
  one stretch (`after_append`), whose effect on one buffer is read off the operations' text. A buffer that a
  stretch does not write keeps its contents.
-/
import proofs.«416156_j1846835937281_3_alg».proof.Proof.Gen.KernelIdeal.Frame
import Idealize.ShloMosaic.Lib.StableHlo.Run
import Idealize.ShloMosaic.PureOps.Ideal

noncomputable section

namespace Cert.KernelIdeal.Entry

open Idealize.ShloMosaic Idealize.ShloMosaic.TcCoe Idealize.SL.Sem Idealize.ShloMosaic.StableHlo
open Cert.KernelIdeal Cert.KernelIdeal.Gen

/-- Two stretches of operations applied one after the other are their concatenation applied at once. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The operations between the first region and the second, as one stretch. -/
abbrev ops1 : List (HloOp τ sig (Elt Ideal)) := hostOps1 ++ hostOps1_1 ++ hostOps1_2 ++ hostOps1_3 ++ hostOps1_4
/-- The operations between the second region and the third, as one stretch. -/
abbrev ops2 : List (HloOp τ sig (Elt Ideal)) := hostOps2 ++ hostOps2_1 ++ hostOps2_2 ++ hostOps2_3

/-- A buffer that a stretch does not write keeps its contents (the stretch's written buffers listed, the
    inequalities of references decided). -/
macro "kept_by" : tactic =>
  `(tactic| (refine StableHlo.after_of_forall_not_mem _ _ (List.forall_iff_forall_mem.mp ?_)
             simp only [hostOps0, hostOps1, hostOps1_1, hostOps1_2, hostOps1_3, hostOps1_4, hostOps2, hostOps2_1, hostOps2_2,
               hostOps2_3, ops1, ops2, List.cons_append, List.nil_append, List.append_nil, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-- The second region's entry contents: the one stretch applied to the first region's exit contents. -/
theorem W7_eq (c : Dev nD) : W7 m ρ c = after ops1 (W2 m ρ c) := by
  simp only [ops1, after_append]
  try rfl
/-- The third region's entry contents: the one stretch applied to the second region's exit contents. -/
theorem W12_eq (c : Dev nD) : W12 m ρ c = after ops2 (W8 m ρ c) := by
  simp only [ops2, after_append]
  try rfl

end Cert.KernelIdeal.Entry

end
-- ==== Proof.Entry0.lean ====
/-
  What the first region finds in its input arrays, as functions of the program's arguments: the products array
  is the reference's own stage `%18` (two row gathers of the node table and their product; never opened), the
  first layer's weights are the transposed `64 × 1` argument, the two biases the reshaped arguments; the
  second layer's weights and the edge list's second row pass unchanged.
-/
import proofs.«416156_j1846835937281_3_alg».proof.Proof.EntryLib
import proofs.«416156_j1846835937281_3_alg».proof.Proof.Gen.ReferenceIdeal.Read
import Idealize.ShloMosaic.Lib.Pipeline.Value
import Idealize.ShloMosaic.Lib.ValueIdx

set_option maxRecDepth 16384

noncomputable section

namespace Cert.KernelIdeal.Entry

open Idealize.ShloMosaic Idealize.ShloMosaic.TcCoe Idealize.SL.Sem Idealize.ShloMosaic.StableHlo Idealize.ShloMosaic.ValueIdx
open Cert.KernelIdeal Cert.KernelIdeal.Gen

variable (X : Valuation τ sig (Elt Ideal))

set_option maxHeartbeats 4000000 in
/-- The products array: the reference's stage `%18` of the node table and the edge list. -/
theorem entry0_v18 : after hostOps0 X (Proc.devRef .tc main_v18)
    = Cert.ReferenceIdeal.Read.val_main_v18 (F := Ideal) (X (Proc.devRef .tc main_arg0)) (X (Proc.devRef .tc main_arg9)) := by
  after_results_simp
  rfl

set_option maxHeartbeats 4000000 in
/-- The edge list's second row (the scatter's segment ids): the reference's stage `%3`. -/
theorem entry0_v3 : after hostOps0 X (Proc.devRef .tc main_v3)
    = Cert.ReferenceIdeal.Read.val_main_v3 (F := Ideal) (X (Proc.devRef .tc main_arg9)) := by
  after_results_simp
  rfl

set_option maxHeartbeats 4000000 in
/-- The first layer's weights, a row: the `64 × 1` argument transposed (the reference's stage `%23`). -/
theorem entry0_v19 : after hostOps0 X (Proc.devRef .tc main_v19)
    = Cert.ReferenceIdeal.Read.val_main_v23 (F := Ideal) (X (Proc.devRef .tc main_arg1)) := by
  after_results_simp
  rfl

set_option maxHeartbeats 4000000 in
/-- The first layer's bias, a row: the length-64 argument reshaped. -/
theorem entry0_v20 : after hostOps0 X (Proc.devRef .tc main_v20)
    = shapeCast S1x64 (X (Proc.devRef .tc main_arg2)) shapeCasts_S64_S1x64 := by
  after_results_simp
  rfl

set_option maxHeartbeats 4000000 in
/-- The second layer's bias, one entry: the length-1 argument reshaped. -/
theorem entry0_v21 : after hostOps0 X (Proc.devRef .tc main_v21)
    = shapeCast S1x1 (X (Proc.devRef .tc main_arg4)) shapeCasts_S1_S1x1 := by
  after_results_simp
  rfl

/-- The second layer's weights pass unchanged. -/
theorem entry0_arg3 : after hostOps0 X (Proc.devRef .tc main_arg3) = X (Proc.devRef .tc main_arg3) := by kept_by
/-- The embedding tables and the adjacencies pass unchanged. -/
theorem entry0_arg5 : after hostOps0 X (Proc.devRef .tc main_arg5) = X (Proc.devRef .tc main_arg5) := by kept_by
theorem entry0_arg6 : after hostOps0 X (Proc.devRef .tc main_arg6) = X (Proc.devRef .tc main_arg6) := by kept_by
theorem entry0_arg7 : after hostOps0 X (Proc.devRef .tc main_arg7) = X (Proc.devRef .tc main_arg7) := by kept_by
theorem entry0_arg8 : after hostOps0 X (Proc.devRef .tc main_arg8) = X (Proc.devRef .tc main_arg8) := by kept_by

end Cert.KernelIdeal.Entry

end
-- ==== Proof.Entry1.lean ====
/-
  What the second region finds in its input arrays, as functions of what the first region leaves: the
  normalised user table and the transposed normalised item table are the reference's own stages `%50` and `%56`
  of the two tables (never opened; the change of float format is the identity on the extended reals), the item
  table and the user adjacency pass unchanged; and the first result, the scatter-add of the first region's output
  over the segment ids.
-/
import proofs.«416156_j1846835937281_3_alg».proof.Proof.EntryLib
import proofs.«416156_j1846835937281_3_alg».proof.Proof.Gen.ReferenceIdeal.Read
import Idealize.ShloMosaic.Lib.Pipeline.Value
import Idealize.ShloMosaic.Lib.ValueIdx

set_option maxRecDepth 16384

noncomputable section

namespace Cert.KernelIdeal.Entry

open Idealize.ShloMosaic Idealize.ShloMosaic.TcCoe Idealize.SL.Sem Idealize.ShloMosaic.StableHlo Idealize.ShloMosaic.ValueIdx
open Cert.KernelIdeal Cert.KernelIdeal.Gen

variable (X : Valuation τ sig (Elt Ideal))

set_option maxHeartbeats 4000000 in
/-- The normalised user table: the reference's stage `%50`. -/
theorem entry1_v31 : (after ops1 X (Proc.devRef .tc main_v31) : S4096x64.Idx → EReal)
    = Cert.ReferenceIdeal.Read.val_main_v50 (F := Ideal) (X (Proc.devRef .tc main_arg5)) := by
  simp only [ops1, hostOps1, hostOps1_1, hostOps1_2, hostOps1_3, hostOps1_4, List.cons_append, List.nil_append]
  after_results_simp
  rfl

set_option maxHeartbeats 4000000 in
/-- The transposed normalised item table: the reference's stage `%56`. -/
theorem entry1_v38 : (after ops1 X (Proc.devRef .tc main_v38) : S64x8192.Idx → EReal)
    = Cert.ReferenceIdeal.Read.val_main_v56 (F := Ideal) (X (Proc.devRef .tc main_arg6)) := by
  simp only [ops1, hostOps1, hostOps1_1, hostOps1_2, hostOps1_3, hostOps1_4, List.cons_append, List.nil_append]
  after_results_simp
  rfl

set_option maxHeartbeats 4000000 in
/-- The item table itself, its float format changed only. -/
theorem entry1_v39 : (after ops1 X (Proc.devRef .tc main_v39) : S8192x64.Idx → EReal)
    = X (Proc.devRef .tc main_arg6) := by
  simp only [ops1, hostOps1, hostOps1_1, hostOps1_2, hostOps1_3, hostOps1_4, List.cons_append, List.nil_append]
  after_results_simp
  rfl

set_option maxHeartbeats 4000000 in
/-- The first result: the scatter-add, from zeros, of the first region's output over the segment ids. -/
theorem entry1_v25 : after ops1 X (Proc.devRef .tc main_v25)
    = Host.scatterAdd (F := Ideal) scatter_S100000x64_S1250000x1_S1250000x64_1_0_0_1
        (broadcastInDim S100000x64 ![] bcast_S_S100000x64 (constant S_ .f32 0x00000000#32))
        (broadcastInDim S1250000x1 ![0] bcast_S1250000_S1250000x1_0 (X (Proc.devRef .tc main_v3)))
        (X (Proc.devRef .tc main_v22)) := by
  simp only [ops1, hostOps1, hostOps1_1, hostOps1_2, hostOps1_3, hostOps1_4, List.cons_append, List.nil_append]
  after_results_simp

/-- The tables and the adjacencies pass unchanged. -/
theorem entry1_arg5 : after ops1 X (Proc.devRef .tc main_arg5) = X (Proc.devRef .tc main_arg5) := by kept_by
theorem entry1_arg6 : after ops1 X (Proc.devRef .tc main_arg6) = X (Proc.devRef .tc main_arg6) := by kept_by
theorem entry1_arg7 : after ops1 X (Proc.devRef .tc main_arg7) = X (Proc.devRef .tc main_arg7) := by kept_by
theorem entry1_arg8 : after ops1 X (Proc.devRef .tc main_arg8) = X (Proc.devRef .tc main_arg8) := by kept_by

end Cert.KernelIdeal.Entry

end
-- ==== Proof.Entry2.lean ====
/-
  What the third region finds in its input arrays, as functions of what the second region leaves: the normalised
  item table and the transposed normalised user table are the reference's own stages `%78` and `%84` of the two
  tables (never opened), the user table and the item adjacency pass unchanged; the first two results are not
  touched.
-/
import proofs.«416156_j1846835937281_3_alg».proof.Proof.EntryLib
import proofs.«416156_j1846835937281_3_alg».proof.Proof.Gen.ReferenceIdeal.Read
import Idealize.ShloMosaic.Lib.Pipeline.Value
import Idealize.ShloMosaic.Lib.ValueIdx

set_option maxRecDepth 16384

noncomputable section

namespace Cert.KernelIdeal.Entry

open Idealize.ShloMosaic Idealize.ShloMosaic.TcCoe Idealize.SL.Sem Idealize.ShloMosaic.StableHlo Idealize.ShloMosaic.ValueIdx
open Cert.KernelIdeal Cert.KernelIdeal.Gen

variable (X : Valuation τ sig (Elt Ideal))

set_option maxHeartbeats 4000000 in
/-- The normalised item table: the reference's stage `%78`. -/
theorem entry2_v46 : (after ops2 X (Proc.devRef .tc main_v46) : S8192x64.Idx → EReal)
    = Cert.ReferenceIdeal.Read.val_main_v78 (F := Ideal) (X (Proc.devRef .tc main_arg6)) := by
  simp only [ops2, hostOps2, hostOps2_1, hostOps2_2, hostOps2_3, List.cons_append, List.nil_append, List.append_nil]
  after_results_simp
  rfl

set_option maxHeartbeats 4000000 in
/-- The transposed normalised user table: the reference's stage `%84`. -/
theorem entry2_v53 : (after ops2 X (Proc.devRef .tc main_v53) : S64x4096.Idx → EReal)
    = Cert.ReferenceIdeal.Read.val_main_v84 (F := Ideal) (X (Proc.devRef .tc main_arg5)) := by
  simp only [ops2, hostOps2, hostOps2_1, hostOps2_2, hostOps2_3, List.cons_append, List.nil_append, List.append_nil]
  after_results_simp
  rfl

set_option maxHeartbeats 4000000 in
/-- The user table itself, its float format changed only. -/
theorem entry2_v54 : (after ops2 X (Proc.devRef .tc main_v54) : S4096x64.Idx → EReal)
    = X (Proc.devRef .tc main_arg5) := by
  simp only [ops2, hostOps2, hostOps2_1, hostOps2_2, hostOps2_3, List.cons_append, List.nil_append, List.append_nil]
  after_results_simp
  rfl

/-- The item adjacency and the first two results pass unchanged. -/
theorem entry2_arg8 : after ops2 X (Proc.devRef .tc main_arg8) = X (Proc.devRef .tc main_arg8) := by kept_by
theorem entry2_v25 : after ops2 X (Proc.devRef .tc main_v25) = X (Proc.devRef .tc main_v25) := by kept_by
theorem entry2_v40 : after ops2 X (Proc.devRef .tc main_v40) = X (Proc.devRef .tc main_v40) := by kept_by

end Cert.KernelIdeal.Entry

end
-- ==== Proof.Spec.lean ====
/-
  The mathematics both programs compute, stated once over the extended reals, free of any tiling.

  Edge stage.  For one edge the 64 products `p` (the gathered rows multiplied) are pooled to their mean
  `g = (∑ p) / 64`; a hidden layer `h k = max (g · w₁ k + b₁ k) 0` is contracted with `w₂` and shifted by `b₂`
  to the gate's logit; the gate is the logistic function of it; the message is `gate · p + p`.

  Attention stage.  For one row, with `e` the row's normalised embedding, `anT` the normalised attended
  table (transposed), `a` the row of the adjacency and `ae` the attended table itself: the similarity
  `s k = (∑ j, e j · anT j k) · a k` is kept where it is not zero and replaced by a fixed large negative number
  elsewhere; the soft-max of that row (its maximum subtracted first) weights the rows of `ae`.

  Every float literal is kept as the word both programs print; only `0`, `1` and `-∞` are ever evaluated.
-/
import Idealize.ShloMosaic.PureOps.Ideal
import Idealize.ShloMosaic.Lib.ValueIdx

noncomputable section

namespace Cert.Spec

open Idealize.ShloMosaic Idealize.ShloMosaic.ValueIdx

/-! ## One edge -/

/-- The hidden layer's unit `k` for an edge whose products are `p`: the pooled mean times `w₁ k`, plus `b₁ k`,
    clipped below at zero. -/
def edgeHidden (p w1 b1 : Fin 64 → EReal) (k : Fin 64) : EReal :=
  max (Ideal.div (∑ j : Fin 64, p j) (Ideal.ofBits .f32 0x42800000#32) * w1 k + b1 k) 0

/-- The gate of an edge: the logistic function of the hidden layer contracted with `w₂`, plus `b₂`. -/
def edgeGate (p w1 b1 w2 : Fin 64 → EReal) (b2 : EReal) : EReal :=
  Ideal.logistic ((∑ k : Fin 64, edgeHidden p w1 b1 k * w2 k) + b2)

/-- The message an edge sends, component `d`: `gate · p d + p d`. -/
def edgeRow (p w1 b1 w2 : Fin 64 → EReal) (b2 : EReal) (d : Fin 64) : EReal :=
  edgeGate p w1 b1 w2 b2 * p d + p d

/-- All messages: row `r` of the result is `edgeRow` of row `r` of the products. -/
def msgArr (p : (⟨2, ![1250000, 64]⟩ : Shape).Idx → EReal) (w1 b1 w2 : Fin 64 → EReal) (b2 : EReal) :
    (⟨2, ![1250000, 64]⟩ : Shape).Idx → EReal :=
  fun i => edgeRow (fun j => p (ix2 (i 0) j)) w1 b1 w2 b2 (i 1)

/-! ## One attention row over `C` attended items -/

variable {C : Nat}

/-- The masked similarity of the row with item `k`: the cosine product times the adjacency entry, kept where it
    is not zero, else the fill `-9·10¹⁵` (the word `0xD9FFCB9E`). -/
def attnLogit (e : Fin 64 → EReal) (anT : Fin 64 → Fin C → EReal) (a : Fin C → EReal) (k : Fin C) : EReal :=
  Scalar.select (Ideal.cmp .one ((∑ j : Fin 64, e j * anT j k) * a k) 0) ((∑ j : Fin 64, e j * anT j k) * a k)
    (Ideal.ofBits .f32 0xD9FFCB9E#32)

/-- The row's largest masked similarity (a maximum taken from `-∞`). -/
def attnMax (e : Fin 64 → EReal) (anT : Fin 64 → Fin C → EReal) (a : Fin C → EReal) : EReal :=
  (Finset.univ : Finset (Fin C)).fold max (Ideal.ofBits .f32 0xFF800000#32) (attnLogit e anT a)

/-- The unnormalised soft-max weight of item `k`. -/
def attnExp (e : Fin 64 → EReal) (anT : Fin 64 → Fin C → EReal) (a : Fin C → EReal) (k : Fin C) : EReal :=
  Ideal.exp (attnLogit e anT a k - attnMax e anT a)

/-- The row of the result, component `d`: the soft-max weights times column `d` of the attended table. -/
def attnRow (e : Fin 64 → EReal) (anT : Fin 64 → Fin C → EReal) (ae : Fin C → Fin 64 → EReal) (a : Fin C → EReal)
    (d : Fin 64) : EReal :=
  ∑ k : Fin C, Ideal.div (attnExp e anT a k) (∑ k' : Fin C, attnExp e anT a k') * ae k d

/-- The whole result for `R` rows: row `r` is `attnRow` of row `r` of the normalised embeddings and of the
    adjacency. -/
def attnArr {R : Nat} (en : (⟨2, ![R, 64]⟩ : Shape).Idx → EReal) (anT : (⟨2, ![64, C]⟩ : Shape).Idx → EReal)
    (ae : (⟨2, ![C, 64]⟩ : Shape).Idx → EReal) (adj : (⟨2, ![R, C]⟩ : Shape).Idx → EReal) :
    (⟨2, ![R, 64]⟩ : Shape).Idx → EReal :=
  fun i => attnRow (fun j => en (ix2 (i 0) j)) (fun j k => anT (ix2 j k)) (fun k d => ae (ix2 k d))
    (fun k => adj (ix2 (i 0) k)) (i 1)

end Cert.Spec

end
-- ==== Proof.Region0.lean ====
import proofs.«416156_j1846835937281_3_alg».proof.Proof.Gen.KernelIdeal.Frame
import proofs.«416156_j1846835937281_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Cert.KernelIdeal Cert.KernelIdeal.Gen
open Idealize.ShloMosaic.Pipeline (Dat)

/-! ## The layout steps of the body, read at coordinates -/

section Layout
variable {α : Type}

/-- A vector of `a` entries cast to one column reads, at row `p`, the entry `p`. -/
theorem colCast_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast along the lanes reads, at `(p, d)`, the column's entry of row `p`. -/
theorem colBroadcast_apply {a b : ℕ} (ha : a ≠ 1) (v : (⟨2, ![a, 1]⟩ : Shape).Idx → α)
    (h : (⟨2, ![a, 1]⟩ : Shape).Broadcasts ⟨2, ![a, b]⟩) (p : Fin a) (d : Fin b) :
    broadcastTo ⟨2, ![a, b]⟩ v h (ix2 p d) = v (ix2 p (0 : Fin 1)) := by
  refine broadcastTo_apply v h (ix2 p d) (ix2 p (0 : Fin 1)) fun ax => ?_
  match ax with
  | ⟨0, _⟩ =>
    show p.val = if a = 1 then 0 else p.val
    rw [if_neg ha]
  | ⟨1, _⟩ => rfl

/-- The one entry of a `1 × 1` array broadcast down a column reads that entry at every row. -/
theorem oneBroadcast_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  rw [broadcastTo_1b_ab_apply v h p u, show u = (0 : Fin 1) from Subsingleton.elim _ _]

end Layout

/-- The sum along the 64 lanes of a `10000 × 64` vector of extended reals, at row `p`. -/
theorem laneSum_apply (v : FVec Ideal S10000x64 .f32) (h : S10000x64.Reduces [1] S10000) (hφ : FTy.f32 = FTy.f32 ∨ FTy.f32 = FTy.bf16)
    (hacc : (0x00000000#32 : BitVec 32) = 0x00000000#32) (p : Fin 10000) :
    multiReduction (F := Ideal) .add [1] S10000 v 0x00000000#32 h hφ hacc (ix1 p) = ∑ k : Fin 64, v (ix2 p k) := by
  refine (Ideal.multiReduction_add_single v 0x00000000#32 h hφ hacc (ix1 p)).trans ?_
  refine Finset.sum_congr rfl fun k _ => congrArg v (funext fun c => Fin.ext ?_)
  match c with
  | ⟨0, _⟩ => rfl
  | ⟨1, _⟩ => rfl

/-! ## The body's arithmetic at one entry -/

/-- The logistic function applied to a vector reads, at an index, the logistic function of the entry. -/
theorem logistic_apply {s : Shape} {φ : FTy} (a : FVec Ideal s φ) (i : s.Idx) : logistic a i = Ideal.logistic (a i) := rfl

/-- The value the body stores at row `p`, lane `d` of its block is the message of that row: the row's 64
    products pooled, passed through the hidden layer and the gate, and the gate applied to product `d`. -/
theorem payload_apply (x0 : Vec Ideal S10000x64 .f32) (x1 x2 x3 : Vec Ideal S1x64 .f32) (x4 : Vec Ideal S1x1 .f32)
    (p : Fin 10000) (d : Fin 64) :
    k0_pay1 (F := Ideal) x0 x1 x2 x3 x4 (ix2 p d)
      = Spec.edgeRow (fun j => x0 (ix2 p j)) (fun k => x1 (ix2 0 k)) (fun k => x2 (ix2 0 k))
          (fun k => x3 (ix2 0 k)) (x4 (ix2 0 0)) d := by
  unfold k0_pay1
  dsimp only
  simp only [shapeCast_self]
  simp only [addf_apply, mulf_apply, colBroadcast_apply (show (10000 : ℕ) ≠ 1 by decide), logistic_apply,
    colCast_apply, oneBroadcast_apply]
  unfold Spec.edgeRow Spec.edgeGate
  -- the gate's logit: the second lane sum, term by term
  refine congrArg (fun s => Ideal.logistic (s + x4 (ix2 0 0)) * x0 (ix2 p d) + x0 (ix2 p d)) ?_
  refine (laneSum_apply _ _ _ _ p).trans (Finset.sum_congr rfl fun k _ => ?_)
  simp only [addf_apply, mulf_apply, maximumf_apply, divf_apply, broadcast_apply,
    colBroadcast_apply (show (10000 : ℕ) ≠ 1 by decide), broadcastTo_1b_ab_apply, colCast_apply,
    Ideal.ofBits_def, Ideal.ofBits_zero_f32]
  unfold Spec.edgeHidden
  -- the pooled mean: the first lane sum
  refine congrArg (fun s => max (Ideal.div s (Ideal.ofBits .f32 0x42800000#32) * x1 (ix2 0 k) + x2 (ix2 0 k)) 0
    * x3 (ix2 0 k)) ?_
  exact laneSum_apply _ _ _ _ p

/-- The same entry, for a block whose rows are rows of an array `A` and whose parameter rows are `w₁`, `b₁`,
    `w₂`, `b₂`: the entry `i` of the messages of `A`, where `i` is the array index the block's `(p, d)` sits at. -/
theorem block_apply (x0 : Vec Ideal S10000x64 .f32) (x1 x2 x3 : Vec Ideal S1x64 .f32) (x4 : Vec Ideal S1x1 .f32)
    (A : S1250000x64.Idx → EReal) (w1 b1 w2 : Fin 64 → EReal) (b2 : EReal) (p : Fin 10000) (d : Fin 64)
    (i : S1250000x64.Idx) (h0 : ∀ j : Fin 64, x0 (ix2 p j) = A (ix2 (i 0) j)) (h1 : ∀ k : Fin 64, x1 (ix2 0 k) = w1 k)
    (h2 : ∀ k : Fin 64, x2 (ix2 0 k) = b1 k) (h3 : ∀ k : Fin 64, x3 (ix2 0 k) = w2 k) (h4 : x4 (ix2 0 0) = b2)
    (hd : i 1 = d) :
    k0_pay1 (F := Ideal) x0 x1 x2 x3 x4 (ix2 p d) = Spec.msgArr A w1 b1 w2 b2 i := by
  rw [payload_apply, funext h0, funext h1, funext h2, funext h3, h4, ← hd]
  rfl

/-! ## From the blocks to the array -/

variable (V : (c : Dev nD) → (b : Ref sig .tc) → Buf (Elt Ideal) ((c : Thread nD τ).loc b))

theorem zeros2 : (![0, 0] : Fin 2 → Nat) = fun _ => 0 := funext fun a => by fin_cases a <;> rfl

/-- The block indices over the grid: point `t` takes block `(t, 0)` of the products and of the result, and block
    `(0, 0)` of each parameter array. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the products block at point `t` is row `10000 t + p` of the products array. -/
theorem products_apply (c : Dev nD) (t : Fin cfg0.N) (p : Fin 10000) (d : Fin 64) (r : Fin 1250000)
    (hr : r.val = t.val * 10000 + p.val) :
    (iblk0 V c 0 t : Vec Ideal S10000x64 .f32) (ix2 p d) = (V c main_v18 : S1250000x64.Idx → EReal) (ix2 r d) := by
  obtain ⟨e0, e1, -⟩ := blockIdx t
  unfold iblk0
  rw [View.read_apply]
  show V c main_v18 _ = V c main_v18 _
  congr 1
  funext a
  apply Fin.ext
  match a with
  | ⟨0, _⟩ => show win0_0.index t (0 : Fin 2) * 10000 + 1 * p.val = r.val; omega
  | ⟨1, _⟩ => show win0_0.index t (1 : Fin 2) * 64 + 1 * d.val = d.val; omega

/-- The first parameter block is the array `w₁` is read from, whole, at every point. -/
theorem w1_apply (c : Dev nD) (t : Fin cfg0.N) (k : Fin 64) :
    (iblk0 V c 1 t : Vec Ideal S1x64 .f32) (ix2 0 k) = (V c main_v19 : S1x64.Idx → EReal) (ix2 0 k) := by
  obtain ⟨-, -, e0, e1, -⟩ := blockIdx t
  unfold iblk0
  rw [View.read_apply]
  show V c main_v19 _ = V c main_v19 _
  congr 1
  funext a
  apply Fin.ext
  match a with
  | ⟨0, _⟩ => show win0_1.index t (0 : Fin 2) * 1 + 1 * 0 = 0; omega
  | ⟨1, _⟩ => show win0_1.index t (1 : Fin 2) * 64 + 1 * k.val = k.val; omega

/-- The second parameter block is the array `b₁` is read from. -/
theorem b1_apply (c : Dev nD) (t : Fin cfg0.N) (k : Fin 64) :
    (iblk0 V c 2 t : Vec Ideal S1x64 .f32) (ix2 0 k) = (V c main_v20 : S1x64.Idx → EReal) (ix2 0 k) := by
  obtain ⟨-, -, -, -, e0, e1, -⟩ := blockIdx t
  unfold iblk0
  rw [View.read_apply]
  show V c main_v20 _ = V c main_v20 _
  congr 1
  funext a
  apply Fin.ext
  match a with
  | ⟨0, _⟩ => show win0_2.index t (0 : Fin 2) * 1 + 1 * 0 = 0; omega
  | ⟨1, _⟩ => show win0_2.index t (1 : Fin 2) * 64 + 1 * k.val = k.val; omega

/-- The third parameter block is the array `w₂` is read from. -/
theorem w2_apply (c : Dev nD) (t : Fin cfg0.N) (k : Fin 64) :
    (iblk0 V c 3 t : Vec Ideal S1x64 .f32) (ix2 0 k) = (V c main_arg3 : S1x64.Idx → EReal) (ix2 0 k) := by
  obtain ⟨-, -, -, -, -, -, e0, e1, -⟩ := blockIdx t
  unfold iblk0
  rw [View.read_apply]
  show V c main_arg3 _ = V c main_arg3 _
  congr 1
  funext a
  apply Fin.ext
  match a with
  | ⟨0, _⟩ => show win0_3.index t (0 : Fin 2) * 1 + 1 * 0 = 0; omega
  | ⟨1, _⟩ => show win0_3.index t (1 : Fin 2) * 64 + 1 * k.val = k.val; omega

/-- The fourth parameter block is the one entry `b₂` is read from. -/
theorem b2_apply (c : Dev nD) (t : Fin cfg0.N) :
    (iblk0 V c 4 t : Vec Ideal S1x1 .f32) (ix2 0 0) = (V c main_v21 : S1x1.Idx → EReal) (ix2 0 0) := by
  obtain ⟨-, -, -, -, -, -, -, -, e0, e1, -⟩ := blockIdx t
  unfold iblk0
  rw [View.read_apply]
  show V c main_v21 _ = V c main_v21 _
  congr 1
  funext a
  apply Fin.ext
  match a with
  | ⟨0, _⟩ => show win0_4.index t (0 : Fin 2) * 1 + 1 * 0 = 0; omega
  | ⟨1, _⟩ => show win0_4.index t (1 : Fin 2) * 1 + 1 * 0 = 0; omega

/-- What point `t` writes back is block `t` of the messages of the products array as the region finds it. -/
theorem flushed_eq (c : Dev nD) (t : Fin cfg0.N) :
    (dat0 (F := Ideal) V c).flushed 5 t
      = ((cfg0.win 5).blk t).view.read (Elt Ideal)
          (Spec.msgArr (V c main_v18) (fun k => V c main_v19 (ix2 0 k)) (fun k => V c main_v20 (ix2 0 k))
            (fun k => V c main_arg3 (ix2 0 k)) (V c main_v21 (ix2 0 0))) := by
  show (cfg0.win 5).cut (grid0.coords t) ((dat0 V c).after 5 t) = _
  rw [after0_5]
  unfold out0_5
  rw [View.canon_unit_zero zeros2]
  simp only [View.ld_unit_zero (S := S10000x64) zeros2, View.ld_unit_zero (S := S1x64) zeros2,
    View.ld_unit_zero (S := S1x1) zeros2]
  obtain ⟨-, -, -, -, -, -, -, -, -, -, e0, e1⟩ := blockIdx t
  funext j
  obtain ⟨p, d, rfl⟩ : ∃ (p : Fin 10000) (d : Fin 64), j = ix2 p d := ⟨j 0, j 1, eq_ix2 (n0 := 10000) (n1 := 64) j⟩
  show k0_pay1 (F := Ideal) (iblk0 V c 0 t) (iblk0 V c 1 t) (iblk0 V c 2 t) (iblk0 V c 3 t) (iblk0 V c 4 t) (ix2 p d)
    = Spec.msgArr (V c main_v18) (fun k => V c main_v19 (ix2 0 k)) (fun k => V c main_v20 (ix2 0 k))
        (fun k => V c main_arg3 (ix2 0 k)) (V c main_v21 (ix2 0 0)) (((cfg0.win 5).blk t).view.emb (ix2 p d))
  refine block_apply _ _ _ _ _ _ _ _ _ _ p d _ (fun j => products_apply V c t p j _ ?_) (w1_apply V c t)
    (b1_apply V c t) (w2_apply V c t) (b2_apply V c t) (Fin.ext ?_)
  · show win0_5.index t (0 : Fin 2) * 10000 + 1 * p.val = t.val * 10000 + p.val
    omega
  · show win0_5.index t (1 : Fin 2) * 64 + 1 * d.val = d.val
    omega

/-- An index of the result array is in point `t`'s block iff each coordinate is in the block's range on its axis. -/
theorem mem_block (t : Fin cfg0.N) (i : S1250000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v22).slice (win0_5.rect t)).set ↔ _
  rw [View.set_slice_whole, Rect.mem_set_unit]
  exact Iff.rfl

/-- Every row of the result is written: row `r` by point `r / 10000`. -/
theorem covered (i : S1250000x64.Idx) :
    ∃ t : Fin cfg0.N, (cfg0.win 5).flush t = true ∧ i ∈ ((cfg0.win 5).blk t).view.set := by
  have hi0 : (i 0).val < 1250000 := (i 0).isLt
  have hi1 : (i 1).val < 64 := (i 1).isLt
  have hN : cfg0.N = 125 := N_0
  obtain ⟨t, ht⟩ : ∃ t : Fin cfg0.N, t.val = (i 0).val / 10000 := ⟨⟨(i 0).val / 10000, by rw [hN]; omega⟩, rfl⟩
  obtain ⟨-, -, -, -, -, -, -, -, -, -, e0, e1⟩ := blockIdx t
  refine ⟨t, flush0_5 t, ?_⟩
  rw [mem_block]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

/-- What region 0 leaves in its output array, whatever the buffers hold when it is entered: the messages of the
    products array, the parameters read off the one-row arrays the region is given. -/
theorem arrAt (c : Dev nD) :
    (dat0 (F := Ideal) V c).arrAt 5 cfg0.N
      = Spec.msgArr (V c main_v18) (fun k => V c main_v19 (ix2 0 k)) (fun k => V c main_v20 (ix2 0 k))
          (fun k => V c main_arg3 (ix2 0 k)) (V c main_v21 (ix2 0 0)) :=
  (dat0 (F := Ideal) V c).arrAt_eq_of_cover 5 _ (fun t _ => flushed_eq V c t) covered

end Cert.KernelIdeal.Region0

end
-- ==== Proof.Region1.lean ====
import proofs.«416156_j1846835937281_3_alg».proof.Proof.Gen.KernelIdeal.Frame
import proofs.«416156_j1846835937281_3_alg».proof.Proof.Spec
import Idealize.ShloMosaic.Lib.Pipeline.Value
import Idealize.ShloMosaic.Lib.ValueIdx
import Idealize.ShloMosaic.PureOps.Ideal.Laws

noncomputable section

namespace Cert.KernelIdeal.Region1

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-! ## The two matrix products at an index -/

theorem simL_0 (i : S128x8192.Idx) (q : dot_S128x64_S64x8192_S128x8192_1_0_0_1_n_n.contr.Idx) :
    (dot_S128x64_S64x8192_S128x8192_1_0_0_1_n_n.lhsIdx i q 0).val = (i 0).val := by
  unfold DotDims.lhsIdx
  rw [dif_neg (show ¬(0 : Fin S128x64.rank) ∈ dot_S128x64_S64x8192_S128x8192_1_0_0_1_n_n.lhsBatch by decide), dif_pos (show (0 : Fin S128x64.rank) ∈ dot_S128x64_S64x8192_S128x8192_1_0_0_1_n_n.lhsNonContracting by decide)]
  rfl
theorem simL_1 (i : S128x8192.Idx) (q : dot_S128x64_S64x8192_S128x8192_1_0_0_1_n_n.contr.Idx) :
    (dot_S128x64_S64x8192_S128x8192_1_0_0_1_n_n.lhsIdx i q 1).val = (q ⟨0, by decide⟩).val :=
  dot_S128x64_S64x8192_S128x8192_1_0_0_1_n_n.lhsIdx_val_of_single rfl i q
theorem simR_0 (i : S128x8192.Idx) (q : dot_S128x64_S64x8192_S128x8192_1_0_0_1_n_n.contr.Idx) :
    (dot_S128x64_S64x8192_S128x8192_1_0_0_1_n_n.rhsIdx i q 0).val = (q ⟨0, by decide⟩).val :=
  dot_S128x64_S64x8192_S128x8192_1_0_0_1_n_n.rhsIdx_val_of_single rfl i q
theorem simR_1 (i : S128x8192.Idx) (q : dot_S128x64_S64x8192_S128x8192_1_0_0_1_n_n.contr.Idx) :
    (dot_S128x64_S64x8192_S128x8192_1_0_0_1_n_n.rhsIdx i q 1).val = (i 1).val := by
  unfold DotDims.rhsIdx
  rw [dif_neg (show ¬(1 : Fin S64x8192.rank) ∈ dot_S128x64_S64x8192_S128x8192_1_0_0_1_n_n.rhsBatch by decide), dif_pos (show (1 : Fin S64x8192.rank) ∈ dot_S128x64_S64x8192_S128x8192_1_0_0_1_n_n.rhsNonContracting by decide)]
  rfl

/-- The similarity product at row `p`, item `k`: the sum over the 64 features of the row's entry times the table's. -/
theorem sim_apply (l : FVec Ideal S128x64 .bf16) (r : FVec Ideal S64x8192 .bf16) (p : Fin 128) (k : Fin 8192) :
    matmul dot_S128x64_S64x8192_S128x8192_1_0_0_1_n_n none l r (constant S128x8192 .f32 0x00000000#32) (ix2 p k)
      = ∑ j : Fin 64, l (ix2 p j) * r (ix2 j k) := by
  simp only [matmul]
  rw [Ideal.matmul_constant_zero_apply, ← Equiv.sum_comp (ValueIdx.contrEquiv1 dot_S128x64_S64x8192_S128x8192_1_0_0_1_n_n 64 rfl rfl).symm]
  refine Finset.sum_congr rfl fun j _ => ?_
  have hj := ValueIdx.contrEquiv1_symm_val dot_S128x64_S64x8192_S128x8192_1_0_0_1_n_n 64 rfl rfl j
  have el : dot_S128x64_S64x8192_S128x8192_1_0_0_1_n_n.lhsIdx (ix2 p k) ((ValueIdx.contrEquiv1 dot_S128x64_S64x8192_S128x8192_1_0_0_1_n_n 64 rfl rfl).symm j) = ix2 p j := funext fun a => Fin.ext (by
    match a with
    | ⟨0, _⟩ => exact simL_0 _ _
    | ⟨1, _⟩ => exact (simL_1 _ _).trans hj)
  have er : dot_S128x64_S64x8192_S128x8192_1_0_0_1_n_n.rhsIdx (ix2 p k) ((ValueIdx.contrEquiv1 dot_S128x64_S64x8192_S128x8192_1_0_0_1_n_n 64 rfl rfl).symm j) = ix2 j k := funext fun a => Fin.ext (by
    match a with
    | ⟨0, _⟩ => exact (simR_0 _ _).trans hj
    | ⟨1, _⟩ => exact simR_1 _ _)
  rw [el, er]

theorem mixL_0 (i : S128x64.Idx) (q : dot_S128x8192_S8192x64_S128x64_1_0_0_1_n_n.contr.Idx) :
    (dot_S128x8192_S8192x64_S128x64_1_0_0_1_n_n.lhsIdx i q 0).val = (i 0).val := by
  unfold DotDims.lhsIdx
  rw [dif_neg (show ¬(0 : Fin S128x8192.rank) ∈ dot_S128x8192_S8192x64_S128x64_1_0_0_1_n_n.lhsBatch by decide), dif_pos (show (0 : Fin S128x8192.rank) ∈ dot_S128x8192_S8192x64_S128x64_1_0_0_1_n_n.lhsNonContracting by decide)]
  rfl
theorem mixL_1 (i : S128x64.Idx) (q : dot_S128x8192_S8192x64_S128x64_1_0_0_1_n_n.contr.Idx) :
    (dot_S128x8192_S8192x64_S128x64_1_0_0_1_n_n.lhsIdx i q 1).val = (q ⟨0, by decide⟩).val :=
  dot_S128x8192_S8192x64_S128x64_1_0_0_1_n_n.lhsIdx_val_of_single rfl i q
theorem mixR_0 (i : S128x64.Idx) (q : dot_S128x8192_S8192x64_S128x64_1_0_0_1_n_n.contr.Idx) :
    (dot_S128x8192_S8192x64_S128x64_1_0_0_1_n_n.rhsIdx i q 0).val = (q ⟨0, by decide⟩).val :=
  dot_S128x8192_S8192x64_S128x64_1_0_0_1_n_n.rhsIdx_val_of_single rfl i q
theorem mixR_1 (i : S128x64.Idx) (q : dot_S128x8192_S8192x64_S128x64_1_0_0_1_n_n.contr.Idx) :
    (dot_S128x8192_S8192x64_S128x64_1_0_0_1_n_n.rhsIdx i q 1).val = (i 1).val := by
  unfold DotDims.rhsIdx
  rw [dif_neg (show ¬(1 : Fin S8192x64.rank) ∈ dot_S128x8192_S8192x64_S128x64_1_0_0_1_n_n.rhsBatch by decide), dif_pos (show (1 : Fin S8192x64.rank) ∈ dot_S128x8192_S8192x64_S128x64_1_0_0_1_n_n.rhsNonContracting by decide)]
  rfl

/-- The weighted mix at row `p`, feature `d`: the sum over the attended items of the row's weight times the item's feature. -/
theorem mix_apply (l : FVec Ideal S128x8192 .bf16) (r : FVec Ideal S8192x64 .bf16) (p : Fin 128) (d : Fin 64) :
    matmul dot_S128x8192_S8192x64_S128x64_1_0_0_1_n_n none l r (constant S128x64 .f32 0x00000000#32) (ix2 p d)
      = ∑ k : Fin 8192, l (ix2 p k) * r (ix2 k d) := by
  simp only [matmul]
  rw [Ideal.matmul_constant_zero_apply, ← Equiv.sum_comp (ValueIdx.contrEquiv1 dot_S128x8192_S8192x64_S128x64_1_0_0_1_n_n 8192 rfl rfl).symm]
  refine Finset.sum_congr rfl fun k _ => ?_
  have hk := ValueIdx.contrEquiv1_symm_val dot_S128x8192_S8192x64_S128x64_1_0_0_1_n_n 8192 rfl rfl k
  have el : dot_S128x8192_S8192x64_S128x64_1_0_0_1_n_n.lhsIdx (ix2 p d) ((ValueIdx.contrEquiv1 dot_S128x8192_S8192x64_S128x64_1_0_0_1_n_n 8192 rfl rfl).symm k) = ix2 p k := funext fun a => Fin.ext (by
    match a with
    | ⟨0, _⟩ => exact mixL_0 _ _
    | ⟨1, _⟩ => exact (mixL_1 _ _).trans hk)
  have er : dot_S128x8192_S8192x64_S128x64_1_0_0_1_n_n.rhsIdx (ix2 p d) ((ValueIdx.contrEquiv1 dot_S128x8192_S8192x64_S128x64_1_0_0_1_n_n 8192 rfl rfl).symm k) = ix2 k d := funext fun a => Fin.ext (by
    match a with
    | ⟨0, _⟩ => exact (mixR_0 _ _).trans hk
    | ⟨1, _⟩ => exact mixR_1 _ _)
  rw [el, er]

/-! ## The two row reductions, and a per-row value spread back over the row -/

/-- The index over row `p` with item `k` put back on the reduced axis is `(p, k)`. -/
theorem lift_row (p : Fin 128) (k : Fin 8192) :
    reduces_S128x8192_S128.lift (ix1 p) k = ix2 p k :=
  funext fun a => Fin.ext (by
    match a with
    | ⟨0, _⟩ => rfl
    | ⟨1, _⟩ => rfl)

/-- The row maximum at row `p`: the fold of `max` from the word `0xFF800000` over the row's 8192 entries. -/
theorem rowMax_apply (src : FVec Ideal S128x8192 .f32) (hacc : (0xFF800000#32 : BitVec 32) = 0xFF800000#32) (p : Fin 128) :
    multiReduction .maximumf [1] S128 src 0xFF800000#32 reduces_S128x8192_S128 (.inl rfl) hacc (ix1 p)
      = (Finset.univ : Finset (Fin 8192)).fold max (Ideal.ofBits .f32 0xFF800000#32) (fun k => src (ix2 p k)) := by
  refine (Ideal.multiReduction_maximumf_single src 0xFF800000#32 reduces_S128x8192_S128 (.inl rfl) hacc (ix1 p)).trans ?_
  exact congrArg (fun f : Fin 8192 → EReal => (Finset.univ : Finset (Fin 8192)).fold max (Ideal.ofBits .f32 0xFF800000#32) f)
    (funext fun k => congrArg src (lift_row p k))

/-- The row sum at row `p`: the sum of the row's 8192 entries. -/
theorem rowSum_apply (src : FVec Ideal S128x8192 .f32) (hacc : (0x00000000#32 : BitVec 32) = 0x00000000#32) (p : Fin 128) :
    multiReduction .add [1] S128 src 0x00000000#32 reduces_S128x8192_S128 (.inl rfl) hacc (ix1 p)
      = ∑ k : Fin 8192, src (ix2 p k) := by
  refine (Ideal.multiReduction_add_single src 0x00000000#32 reduces_S128x8192_S128 (.inl rfl) hacc (ix1 p)).trans ?_
  exact Finset.sum_congr rfl fun k _ => congrArg src (lift_row p k)

/-- A value per row, made a column and spread over the row's 8192 items, reads the row's value everywhere. -/
theorem spread_apply {α : Type} (v : S128.Idx → α) (p : Fin 128) (k : Fin 8192) :
    broadcastTo S128x8192 (shapeCast S128x1 v shapeCasts_S128_S128x1) broadcasts_S128x1_S128x8192 (ix2 p k) = v (ix1 p) := by
  rw [broadcastTo_apply _ _ (ix2 p k) (ix2 p (0 : Fin 1)) (fun a => by
    match a with
    | ⟨0, _⟩ => rfl
    | ⟨1, _⟩ => rfl)]
  exact shapeCast_apply v _ (ix2 p (0 : Fin 1)) (ix1 p) (by
    rw [Shape.rowMajor_val_one, Shape.rowMajor_val_two]
    show p.val = p.val * 1 + 0
    omega)

/-! ## The body's arithmetic, stage by stage -/

/-- The masked similarities of a block of 128 rows: the similarity product times the adjacency, kept where it is not
    zero, else the fill word. -/
def logitBlk (x0 : FVec Ideal S128x64 .bf16) (x1 : FVec Ideal S64x8192 .bf16) (x3 : FVec Ideal S128x8192 .f32) : FVec Ideal S128x8192 .f32 :=
  select
    (cmpf .one (mulf (matmul dot_S128x64_S64x8192_S128x8192_1_0_0_1_n_n none x0 x1 (constant (F := Ideal) S128x8192 .f32 0x00000000#32)) x3)
      (broadcast S128x8192 (Scalar.ofBits (F := Ideal) .f32 0x00000000#32)))
    (mulf (matmul dot_S128x64_S64x8192_S128x8192_1_0_0_1_n_n none x0 x1 (constant (F := Ideal) S128x8192 .f32 0x00000000#32)) x3)
    (broadcast S128x8192 (Scalar.ofBits (F := Ideal) .f32 0xD9FFCB9E#32))

theorem logitBlk_apply (x0 : FVec Ideal S128x64 .bf16) (x1 : FVec Ideal S64x8192 .bf16) (x3 : FVec Ideal S128x8192 .f32) (p : Fin 128) (k : Fin 8192) :
    logitBlk x0 x1 x3 (ix2 p k)
      = Spec.attnLogit (C := 8192) (fun j => x0 (ix2 p j)) (fun j k => x1 (ix2 j k)) (fun k => x3 (ix2 p k)) k := by
  unfold logitBlk Spec.attnLogit
  rw [select_apply, cmpf_apply, mulf_apply, broadcast_apply, broadcast_apply, sim_apply, Ideal.cmpf_def]
  show Scalar.select (Ideal.cmp .one _ (Ideal.ofBits .f32 0x00000000#32)) _ (Ideal.ofBits .f32 0xD9FFCB9E#32) = _
  rw [Ideal.ofBits_zero_f32]

/-- `exp` of a block at an index is `exp` of the entry there. -/
theorem exp_apply (a : FVec Ideal S128x8192 .f32) (i : S128x8192.Idx) : exp a i = Ideal.exp (a i) := rfl

/-- The unnormalised weights of the block: `exp` of each masked similarity less its row's maximum. -/
def expBlk (x0 : FVec Ideal S128x64 .bf16) (x1 : FVec Ideal S64x8192 .bf16) (x3 : FVec Ideal S128x8192 .f32) : FVec Ideal S128x8192 .f32 :=
  exp (subf (logitBlk x0 x1 x3)
    (broadcastTo S128x8192 (shapeCast S128x1
      (multiReduction .maximumf [1] S128 (logitBlk x0 x1 x3) 0xFF800000#32 reduces_S128x8192_S128 (.inl rfl) rfl)
      shapeCasts_S128_S128x1) broadcasts_S128x1_S128x8192))

theorem expBlk_apply (x0 : FVec Ideal S128x64 .bf16) (x1 : FVec Ideal S64x8192 .bf16) (x3 : FVec Ideal S128x8192 .f32) (p : Fin 128) (k : Fin 8192) :
    expBlk x0 x1 x3 (ix2 p k)
      = Spec.attnExp (C := 8192) (fun j => x0 (ix2 p j)) (fun j k => x1 (ix2 j k)) (fun k => x3 (ix2 p k)) k := by
  unfold expBlk Spec.attnExp Spec.attnMax
  rw [exp_apply, subf_apply, spread_apply, rowMax_apply, logitBlk_apply]
  simp only [logitBlk_apply]

/-- The body's result is the weights, each divided by its row's sum, times the attended table. -/
theorem pay_eq (x0 : FVec Ideal S128x64 .bf16) (x1 : FVec Ideal S64x8192 .bf16) (x3 : FVec Ideal S128x8192 .f32) (x2 : FVec Ideal S8192x64 .bf16) :
    k1_pay1 (F := Ideal) x0 x1 x3 x2
      = matmul dot_S128x8192_S8192x64_S128x64_1_0_0_1_n_n none
          (truncf .bf16 (divf (expBlk x0 x1 x3)
            (broadcastTo S128x8192 (shapeCast S128x1
              (multiReduction .add [1] S128 (expBlk x0 x1 x3) 0x00000000#32 reduces_S128x8192_S128 (.inl rfl) rfl)
              shapeCasts_S128_S128x1) broadcasts_S128x1_S128x8192)) bitsLt_bf16_f32)
          x2 (constant (F := Ideal) S128x64 .f32 0x00000000#32) := by
  unfold k1_pay1 expBlk logitBlk
  simp only [shapeCast_self]

/-- THE PAYLOAD AT AN INDEX: row `p`, feature `d` of what the body stores is the attention row of the block's row `p`. -/
theorem pay_apply (x0 : FVec Ideal S128x64 .bf16) (x1 : FVec Ideal S64x8192 .bf16) (x3 : FVec Ideal S128x8192 .f32) (x2 : FVec Ideal S8192x64 .bf16)
    (p : Fin 128) (d : Fin 64) :
    k1_pay1 (F := Ideal) x0 x1 x3 x2 (ix2 p d)
      = Spec.attnRow (C := 8192) (fun j => x0 (ix2 p j)) (fun j k => x1 (ix2 j k)) (fun k d => x2 (ix2 k d)) (fun k => x3 (ix2 p k)) d := by
  rw [pay_eq, mix_apply]
  unfold Spec.attnRow
  refine Finset.sum_congr rfl fun k _ => ?_
  rw [truncf_apply, divf_apply, spread_apply, rowSum_apply, expBlk_apply]
  simp only [expBlk_apply]

/-! ## What the body leaves in the output's staging buffer -/

theorem zeroOffsets : (![0, 0] : Fin 2 → Nat) = fun _ => 0 := funext fun a => by fin_cases a <;> rfl

/-- Row `p`, feature `d` of the staging buffer after the body: the one store covers the buffer, and each load reads its
    whole block. -/
theorem out_apply (x0 : Vec Ideal S128x64 .bf16) (x1 : Vec Ideal S64x8192 .bf16) (x2 : Vec Ideal S8192x64 .bf16)
    (x3 : Vec Ideal S128x8192 .f32) (p : Fin 128) (d : Fin 64) :
    out1_4 (F := Ideal) x0 x1 x2 x3 (ix2 p d)
      = Spec.attnRow (C := 8192) (fun j => x0 (ix2 p j)) (fun j k => x1 (ix2 j k)) (fun k d => x2 (ix2 k d)) (fun k => x3 (ix2 p k)) d := by
  unfold out1_4
  rw [View.canon_unit_zero zeroOffsets]
  simp only [View.ld_unit_zero (S := S128x64) zeroOffsets, View.ld_unit_zero (S := S64x8192) zeroOffsets,
    View.ld_unit_zero (S := S128x8192) zeroOffsets, View.ld_unit_zero (S := S8192x64) zeroOffsets]
  exact pay_apply x0 x1 x3 x2 p d

/-- Attention rows of equal data are equal. -/
theorem attnRow_congr {C : Nat} {e e' : Fin 64 → EReal} {anT anT' : Fin 64 → Fin C → EReal} {ae ae' : Fin C → Fin 64 → EReal}
    {a a' : Fin C → EReal} (he : e = e') (hanT : anT = anT') (hae : ae = ae') (ha : a = a') (d : Fin 64) :
    Spec.attnRow e anT ae a d = Spec.attnRow e' anT' ae' a' d := by
  subst he hanT hae ha; rfl

/-! ## From blocks to the array -/

/-- The index maps over the grid: the row blocks (embeddings, adjacency, output) move with the point, the two tables
    stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of point `t`'s block of the normalised embeddings is row `128·t + p` of the array. -/
theorem embRow (c : Dev nD) (t : Fin cfg1.N) (p : Fin 128) (r : Fin 4096) (hr : r.val = t.val * 128 + p.val) :
    (fun j : Fin 64 => (iblk1 (F := Ideal) V c 0 t : FVec Ideal S128x64 .bf16) (ix2 p j))
      = fun j : Fin 64 => (V c main_v31 : S4096x64.Idx → EReal) (ix2 r j) := by
  obtain ⟨e0, e1, -⟩ := idx_facts t
  funext j
  unfold iblk1
  rw [View.read_apply]
  show V c main_v31 _ = V c main_v31 _
  refine congrArg _ (funext fun a => Fin.ext ?_)
  match a with
  | ⟨0, _⟩ => show win1_0.index t (0 : Fin 2) * 128 + 1 * p.val = r.val; omega
  | ⟨1, _⟩ => show win1_0.index t (1 : Fin 2) * 64 + 1 * j.val = j.val; omega

/-- Point `t`'s block of the transposed normalised table is the whole table. -/
theorem tableT (c : Dev nD) (t : Fin cfg1.N) :
    (fun (j : Fin 64) (k : Fin 8192) => (iblk1 (F := Ideal) V c 1 t : FVec Ideal S64x8192 .bf16) (ix2 j k))
      = fun (j : Fin 64) (k : Fin 8192) => (V c main_v38 : S64x8192.Idx → EReal) (ix2 j k) := by
  obtain ⟨-, -, e0, e1, -⟩ := idx_facts t
  funext j k
  unfold iblk1
  rw [View.read_apply]
  show V c main_v38 _ = V c main_v38 _
  refine congrArg _ (funext fun a => Fin.ext ?_)
  match a with
  | ⟨0, _⟩ => show win1_1.index t (0 : Fin 2) * 64 + 1 * j.val = j.val; omega
  | ⟨1, _⟩ => show win1_1.index t (1 : Fin 2) * 8192 + 1 * k.val = k.val; omega

/-- Point `t`'s block of the attended table is the whole table. -/
theorem table (c : Dev nD) (t : Fin cfg1.N) :
    (fun (k : Fin 8192) (d : Fin 64) => (iblk1 (F := Ideal) V c 2 t : FVec Ideal S8192x64 .bf16) (ix2 k d))
      = fun (k : Fin 8192) (d : Fin 64) => (V c main_v39 : S8192x64.Idx → EReal) (ix2 k d) := by
  obtain ⟨-, -, -, -, e0, e1, -⟩ := idx_facts t
  funext k d
  unfold iblk1
  rw [View.read_apply]
  show V c main_v39 _ = V c main_v39 _
  refine congrArg _ (funext fun a => Fin.ext ?_)
  match a with
  | ⟨0, _⟩ => show win1_2.index t (0 : Fin 2) * 8192 + 1 * k.val = k.val; omega
  | ⟨1, _⟩ => show win1_2.index t (1 : Fin 2) * 64 + 1 * d.val = d.val; omega

/-- Row `p` of point `t`'s block of the adjacency is row `128·t + p` of the array. -/
theorem adjRow (c : Dev nD) (t : Fin cfg1.N) (p : Fin 128) (r : Fin 4096) (hr : r.val = t.val * 128 + p.val) :
    (fun k : Fin 8192 => (iblk1 (F := Ideal) V c 3 t : FVec Ideal S128x8192 .f32) (ix2 p k))
      = fun k : Fin 8192 => (V c main_arg7 : S4096x8192.Idx → EReal) (ix2 r k) := by
  obtain ⟨-, -, -, -, -, -, e0, e1, -⟩ := idx_facts t
  funext k
  unfold iblk1
  rw [View.read_apply]
  show V c main_arg7 _ = V c main_arg7 _
  refine congrArg _ (funext fun a => Fin.ext ?_)
  match a with
  | ⟨0, _⟩ => show win1_3.index t (0 : Fin 2) * 128 + 1 * p.val = r.val; omega
  | ⟨1, _⟩ => show win1_3.index t (1 : Fin 2) * 8192 + 1 * k.val = k.val; omega

/-- Row `p`, feature `d` of point `t`'s output block sits at row `128·t + p`, feature `d` of the output array. -/
theorem outPos (t : Fin cfg1.N) (p : Fin 128) (d : Fin 64) (r : Fin 4096) (hr : r.val = t.val * 128 + p.val) :
    ((cfg1.win 4).blk t).view.emb (ix2 p d : S128x64.Idx) = (ix2 r d : S4096x64.Idx) := by
  obtain ⟨-, -, -, -, -, -, -, -, e0, e1⟩ := idx_facts t
  refine funext fun a => Fin.ext ?_
  match a with
  | ⟨0, _⟩ => show win1_4.index t (0 : Fin 2) * 128 + 1 * p.val = r.val; omega
  | ⟨1, _⟩ => show win1_4.index t (1 : Fin 2) * 64 + 1 * d.val = d.val; omega

/-- What point `t` writes back, entry by entry: the attention rows of the arrays, read at the entry's place in the array. -/
theorem flushed_apply (c : Dev nD) (t : Fin cfg1.N) (y : S128x64.Idx) :
    (dat1 (F := Ideal) V c).flushed 4 t y
      = Spec.attnArr (R := 4096) (C := 8192) (V c main_v31) (V c main_v38) (V c main_v39) (V c main_arg7)
          (((cfg1.win 4).blk t).view.emb y) := by
  obtain ⟨p, d, rfl⟩ : ∃ (p : Fin 128) (d : Fin 64), y = ix2 p d := ⟨y 0, y 1, eq_ix2 y⟩
  have hN : cfg1.N = 32 := N_1
  have hr : t.val * 128 + p.val < 4096 := by have := t.isLt; have := p.isLt; omega
  rw [outPos t p d ⟨t.val * 128 + p.val, hr⟩ rfl]
  show (cfg1.win 4).cut (grid1.coords t) ((dat1 V c).after 4 t) (ix2 p d) = _
  rw [after1_4]
  show out1_4 (iblk1 V c 0 t) (iblk1 V c 1 t) (iblk1 V c 2 t) (iblk1 V c 3 t) (ix2 p d) = _
  refine (out_apply (iblk1 V c 0 t) (iblk1 V c 1 t) (iblk1 V c 2 t) (iblk1 V c 3 t) p d).trans ?_
  exact attnRow_congr (embRow V c t p ⟨t.val * 128 + p.val, hr⟩ rfl) (tableT V c t) (table V c t)
    (adjRow V c t p ⟨t.val * 128 + p.val, hr⟩ rfl) d

/-- WHAT POINT `t` WRITES BACK is its block of the attention rows of the arrays as the region finds them. -/
theorem flushed_eq (c : Dev nD) (t : Fin cfg1.N) :
    (dat1 (F := Ideal) V c).flushed 4 t
      = ((cfg1.win 4).blk t).view.read (Elt Ideal)
          (Spec.attnArr (R := 4096) (C := 8192) (V c main_v31) (V c main_v38) (V c main_v39) (V c main_arg7)) := by
  funext y
  rw [View.read_apply]
  exact flushed_apply V c t y

/-- An index of the output array is in point `t`'s block iff each coordinate is in the block's range on its axis. -/
theorem mem_blk (t : Fin cfg1.N) (i : S4096x64.Idx) :
    i ∈ ((cfg1.win 4).blk t).view.set ↔ ∀ a : Fin 2, win1_4.index t a * S128x64.size a ≤ (i a).val ∧ (i a).val < win1_4.index t a * S128x64.size a + S128x64.size a := by
  show i ∈ ((View.whole main_v40).slice (win1_4.rect t)).set ↔ _
  rw [View.set_slice_whole, Rect.mem_set_unit]
  exact Iff.rfl

/-- Every row of the output is written: row `r` by point `r / 128`. -/
theorem cover (i : S4096x64.Idx) : ∃ t : Fin cfg1.N, (cfg1.win 4).flush t = true ∧ i ∈ ((cfg1.win 4).blk t).view.set := by
  have hi0 : (i 0).val < 4096 := (i 0).isLt
  have hi1 : (i 1).val < 64 := (i 1).isLt
  have hN : cfg1.N = 32 := N_1
  obtain ⟨t, ht⟩ : ∃ t : Fin cfg1.N, t.val = (i 0).val / 128 := ⟨⟨(i 0).val / 128, by omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 64 ≤ (i 1).val ∧ (i 1).val < win1_4.index t (1 : Fin 2) * 64 + 64; omega

/-- What region 1 leaves in its output array, whatever the buffers hold when it is entered: the attention rows of the
    four arrays it is given. -/
theorem arrAt (c : Dev nD) :
    (dat1 (F := Ideal) V c).arrAt 4 cfg1.N
      = Spec.attnArr (R := 4096) (C := 8192) (V c main_v31) (V c main_v38) (V c main_v39) (V c main_arg7) := by
  exact (dat1 (F := Ideal) V c).arrAt_eq_of_cover 4 _ (fun t _ => flushed_eq V c t) cover

end Cert.KernelIdeal.Region1

end
-- ==== Proof.Region2.lean ====
import proofs.«416156_j1846835937281_3_alg».proof.Proof.Gen.KernelIdeal.Frame
import proofs.«416156_j1846835937281_3_alg».proof.Proof.Spec
import Idealize.ShloMosaic.Lib.Pipeline.Value
import Idealize.ShloMosaic.Lib.ValueIdx
import Idealize.ShloMosaic.PureOps.Ideal.Laws

noncomputable section

namespace Cert.KernelIdeal.Region2

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-! ## The two matrix products at an index -/

theorem simL_0 (i : S128x4096.Idx) (q : dot_S128x64_S64x4096_S128x4096_1_0_0_1_n_n.contr.Idx) :
    (dot_S128x64_S64x4096_S128x4096_1_0_0_1_n_n.lhsIdx i q 0).val = (i 0).val := by
  unfold DotDims.lhsIdx
  rw [dif_neg (show ¬(0 : Fin S128x64.rank) ∈ dot_S128x64_S64x4096_S128x4096_1_0_0_1_n_n.lhsBatch by decide), dif_pos (show (0 : Fin S128x64.rank) ∈ dot_S128x64_S64x4096_S128x4096_1_0_0_1_n_n.lhsNonContracting by decide)]
  rfl
theorem simL_1 (i : S128x4096.Idx) (q : dot_S128x64_S64x4096_S128x4096_1_0_0_1_n_n.contr.Idx) :
    (dot_S128x64_S64x4096_S128x4096_1_0_0_1_n_n.lhsIdx i q 1).val = (q ⟨0, by decide⟩).val :=
  dot_S128x64_S64x4096_S128x4096_1_0_0_1_n_n.lhsIdx_val_of_single rfl i q
theorem simR_0 (i : S128x4096.Idx) (q : dot_S128x64_S64x4096_S128x4096_1_0_0_1_n_n.contr.Idx) :
    (dot_S128x64_S64x4096_S128x4096_1_0_0_1_n_n.rhsIdx i q 0).val = (q ⟨0, by decide⟩).val :=
  dot_S128x64_S64x4096_S128x4096_1_0_0_1_n_n.rhsIdx_val_of_single rfl i q
theorem simR_1 (i : S128x4096.Idx) (q : dot_S128x64_S64x4096_S128x4096_1_0_0_1_n_n.contr.Idx) :
    (dot_S128x64_S64x4096_S128x4096_1_0_0_1_n_n.rhsIdx i q 1).val = (i 1).val := by
  unfold DotDims.rhsIdx
  rw [dif_neg (show ¬(1 : Fin S64x4096.rank) ∈ dot_S128x64_S64x4096_S128x4096_1_0_0_1_n_n.rhsBatch by decide), dif_pos (show (1 : Fin S64x4096.rank) ∈ dot_S128x64_S64x4096_S128x4096_1_0_0_1_n_n.rhsNonContracting by decide)]
  rfl

/-- The similarity product at row `p`, item `k`: the sum over the 64 features of the row's entry times the table's. -/
theorem sim_apply (l : FVec Ideal S128x64 .bf16) (r : FVec Ideal S64x4096 .bf16) (p : Fin 128) (k : Fin 4096) :
    matmul dot_S128x64_S64x4096_S128x4096_1_0_0_1_n_n none l r (constant S128x4096 .f32 0x00000000#32) (ix2 p k)
      = ∑ j : Fin 64, l (ix2 p j) * r (ix2 j k) := by
  simp only [matmul]
  rw [Ideal.matmul_constant_zero_apply, ← Equiv.sum_comp (ValueIdx.contrEquiv1 dot_S128x64_S64x4096_S128x4096_1_0_0_1_n_n 64 rfl rfl).symm]
  refine Finset.sum_congr rfl fun j _ => ?_
  have hj := ValueIdx.contrEquiv1_symm_val dot_S128x64_S64x4096_S128x4096_1_0_0_1_n_n 64 rfl rfl j
  have el : dot_S128x64_S64x4096_S128x4096_1_0_0_1_n_n.lhsIdx (ix2 p k) ((ValueIdx.contrEquiv1 dot_S128x64_S64x4096_S128x4096_1_0_0_1_n_n 64 rfl rfl).symm j) = ix2 p j := funext fun a => Fin.ext (by
    match a with
    | ⟨0, _⟩ => exact simL_0 _ _
    | ⟨1, _⟩ => exact (simL_1 _ _).trans hj)
  have er : dot_S128x64_S64x4096_S128x4096_1_0_0_1_n_n.rhsIdx (ix2 p k) ((ValueIdx.contrEquiv1 dot_S128x64_S64x4096_S128x4096_1_0_0_1_n_n 64 rfl rfl).symm j) = ix2 j k := funext fun a => Fin.ext (by
    match a with
    | ⟨0, _⟩ => exact (simR_0 _ _).trans hj
    | ⟨1, _⟩ => exact simR_1 _ _)
  rw [el, er]

theorem mixL_0 (i : S128x64.Idx) (q : dot_S128x4096_S4096x64_S128x64_1_0_0_1_n_n.contr.Idx) :
    (dot_S128x4096_S4096x64_S128x64_1_0_0_1_n_n.lhsIdx i q 0).val = (i 0).val := by
  unfold DotDims.lhsIdx
  rw [dif_neg (show ¬(0 : Fin S128x4096.rank) ∈ dot_S128x4096_S4096x64_S128x64_1_0_0_1_n_n.lhsBatch by decide), dif_pos (show (0 : Fin S128x4096.rank) ∈ dot_S128x4096_S4096x64_S128x64_1_0_0_1_n_n.lhsNonContracting by decide)]
  rfl
theorem mixL_1 (i : S128x64.Idx) (q : dot_S128x4096_S4096x64_S128x64_1_0_0_1_n_n.contr.Idx) :
    (dot_S128x4096_S4096x64_S128x64_1_0_0_1_n_n.lhsIdx i q 1).val = (q ⟨0, by decide⟩).val :=
  dot_S128x4096_S4096x64_S128x64_1_0_0_1_n_n.lhsIdx_val_of_single rfl i q
theorem mixR_0 (i : S128x64.Idx) (q : dot_S128x4096_S4096x64_S128x64_1_0_0_1_n_n.contr.Idx) :
    (dot_S128x4096_S4096x64_S128x64_1_0_0_1_n_n.rhsIdx i q 0).val = (q ⟨0, by decide⟩).val :=
  dot_S128x4096_S4096x64_S128x64_1_0_0_1_n_n.rhsIdx_val_of_single rfl i q
theorem mixR_1 (i : S128x64.Idx) (q : dot_S128x4096_S4096x64_S128x64_1_0_0_1_n_n.contr.Idx) :
    (dot_S128x4096_S4096x64_S128x64_1_0_0_1_n_n.rhsIdx i q 1).val = (i 1).val := by
  unfold DotDims.rhsIdx
  rw [dif_neg (show ¬(1 : Fin S4096x64.rank) ∈ dot_S128x4096_S4096x64_S128x64_1_0_0_1_n_n.rhsBatch by decide), dif_pos (show (1 : Fin S4096x64.rank) ∈ dot_S128x4096_S4096x64_S128x64_1_0_0_1_n_n.rhsNonContracting by decide)]
  rfl

/-- The weighted mix at row `p`, feature `d`: the sum over the attended items of the row's weight times the item's feature. -/
theorem mix_apply (l : FVec Ideal S128x4096 .bf16) (r : FVec Ideal S4096x64 .bf16) (p : Fin 128) (d : Fin 64) :
    matmul dot_S128x4096_S4096x64_S128x64_1_0_0_1_n_n none l r (constant S128x64 .f32 0x00000000#32) (ix2 p d)
      = ∑ k : Fin 4096, l (ix2 p k) * r (ix2 k d) := by
  simp only [matmul]
  rw [Ideal.matmul_constant_zero_apply, ← Equiv.sum_comp (ValueIdx.contrEquiv1 dot_S128x4096_S4096x64_S128x64_1_0_0_1_n_n 4096 rfl rfl).symm]
  refine Finset.sum_congr rfl fun k _ => ?_
  have hk := ValueIdx.contrEquiv1_symm_val dot_S128x4096_S4096x64_S128x64_1_0_0_1_n_n 4096 rfl rfl k
  have el : dot_S128x4096_S4096x64_S128x64_1_0_0_1_n_n.lhsIdx (ix2 p d) ((ValueIdx.contrEquiv1 dot_S128x4096_S4096x64_S128x64_1_0_0_1_n_n 4096 rfl rfl).symm k) = ix2 p k := funext fun a => Fin.ext (by
    match a with
    | ⟨0, _⟩ => exact mixL_0 _ _
    | ⟨1, _⟩ => exact (mixL_1 _ _).trans hk)
  have er : dot_S128x4096_S4096x64_S128x64_1_0_0_1_n_n.rhsIdx (ix2 p d) ((ValueIdx.contrEquiv1 dot_S128x4096_S4096x64_S128x64_1_0_0_1_n_n 4096 rfl rfl).symm k) = ix2 k d := funext fun a => Fin.ext (by
    match a with
    | ⟨0, _⟩ => exact (mixR_0 _ _).trans hk
    | ⟨1, _⟩ => exact mixR_1 _ _)
  rw [el, er]

/-! ## The two row reductions, and a per-row value spread back over the row -/

/-- The index over row `p` with item `k` put back on the reduced axis is `(p, k)`. -/
theorem lift_row (p : Fin 128) (k : Fin 4096) :
    reduces_S128x4096_S128.lift (ix1 p) k = ix2 p k :=
  funext fun a => Fin.ext (by
    match a with
    | ⟨0, _⟩ => rfl
    | ⟨1, _⟩ => rfl)

/-- The row maximum at row `p`: the fold of `max` from the word `0xFF800000` over the row's 4096 entries. -/
theorem rowMax_apply (src : FVec Ideal S128x4096 .f32) (hacc : (0xFF800000#32 : BitVec 32) = 0xFF800000#32) (p : Fin 128) :
    multiReduction .maximumf [1] S128 src 0xFF800000#32 reduces_S128x4096_S128 (.inl rfl) hacc (ix1 p)
      = (Finset.univ : Finset (Fin 4096)).fold max (Ideal.ofBits .f32 0xFF800000#32) (fun k => src (ix2 p k)) := by
  refine (Ideal.multiReduction_maximumf_single src 0xFF800000#32 reduces_S128x4096_S128 (.inl rfl) hacc (ix1 p)).trans ?_
  exact congrArg (fun f : Fin 4096 → EReal => (Finset.univ : Finset (Fin 4096)).fold max (Ideal.ofBits .f32 0xFF800000#32) f)
    (funext fun k => congrArg src (lift_row p k))

/-- The row sum at row `p`: the sum of the row's 4096 entries. -/
theorem rowSum_apply (src : FVec Ideal S128x4096 .f32) (hacc : (0x00000000#32 : BitVec 32) = 0x00000000#32) (p : Fin 128) :
    multiReduction .add [1] S128 src 0x00000000#32 reduces_S128x4096_S128 (.inl rfl) hacc (ix1 p)
      = ∑ k : Fin 4096, src (ix2 p k) := by
  refine (Ideal.multiReduction_add_single src 0x00000000#32 reduces_S128x4096_S128 (.inl rfl) hacc (ix1 p)).trans ?_
  exact Finset.sum_congr rfl fun k _ => congrArg src (lift_row p k)

/-- A value per row, made a column and spread over the row's 4096 items, reads the row's value everywhere. -/
theorem spread_apply {α : Type} (v : S128.Idx → α) (p : Fin 128) (k : Fin 4096) :
    broadcastTo S128x4096 (shapeCast S128x1 v shapeCasts_S128_S128x1) broadcasts_S128x1_S128x4096 (ix2 p k) = v (ix1 p) := by
  rw [broadcastTo_apply _ _ (ix2 p k) (ix2 p (0 : Fin 1)) (fun a => by
    match a with
    | ⟨0, _⟩ => rfl
    | ⟨1, _⟩ => rfl)]
  exact shapeCast_apply v _ (ix2 p (0 : Fin 1)) (ix1 p) (by
    rw [Shape.rowMajor_val_one, Shape.rowMajor_val_two]
    show p.val = p.val * 1 + 0
    omega)

/-! ## The body's arithmetic, stage by stage -/

/-- The masked similarities of a block of 128 rows: the similarity product times the adjacency, kept where it is not
    zero, else the fill word. -/
def logitBlk (x0 : FVec Ideal S128x64 .bf16) (x1 : FVec Ideal S64x4096 .bf16) (x3 : FVec Ideal S128x4096 .f32) : FVec Ideal S128x4096 .f32 :=
  select
    (cmpf .one (mulf (matmul dot_S128x64_S64x4096_S128x4096_1_0_0_1_n_n none x0 x1 (constant (F := Ideal) S128x4096 .f32 0x00000000#32)) x3)
      (broadcast S128x4096 (Scalar.ofBits (F := Ideal) .f32 0x00000000#32)))
    (mulf (matmul dot_S128x64_S64x4096_S128x4096_1_0_0_1_n_n none x0 x1 (constant (F := Ideal) S128x4096 .f32 0x00000000#32)) x3)
    (broadcast S128x4096 (Scalar.ofBits (F := Ideal) .f32 0xD9FFCB9E#32))

theorem logitBlk_apply (x0 : FVec Ideal S128x64 .bf16) (x1 : FVec Ideal S64x4096 .bf16) (x3 : FVec Ideal S128x4096 .f32) (p : Fin 128) (k : Fin 4096) :
    logitBlk x0 x1 x3 (ix2 p k)
      = Spec.attnLogit (C := 4096) (fun j => x0 (ix2 p j)) (fun j k => x1 (ix2 j k)) (fun k => x3 (ix2 p k)) k := by
  unfold logitBlk Spec.attnLogit
  rw [select_apply, cmpf_apply, mulf_apply, broadcast_apply, broadcast_apply, sim_apply, Ideal.cmpf_def]
  show Scalar.select (Ideal.cmp .one _ (Ideal.ofBits .f32 0x00000000#32)) _ (Ideal.ofBits .f32 0xD9FFCB9E#32) = _
  rw [Ideal.ofBits_zero_f32]

/-- `exp` of a block at an index is `exp` of the entry there. -/
theorem exp_apply (a : FVec Ideal S128x4096 .f32) (i : S128x4096.Idx) : exp a i = Ideal.exp (a i) := rfl

/-- The unnormalised weights of the block: `exp` of each masked similarity less its row's maximum. -/
def expBlk (x0 : FVec Ideal S128x64 .bf16) (x1 : FVec Ideal S64x4096 .bf16) (x3 : FVec Ideal S128x4096 .f32) : FVec Ideal S128x4096 .f32 :=
  exp (subf (logitBlk x0 x1 x3)
    (broadcastTo S128x4096 (shapeCast S128x1
      (multiReduction .maximumf [1] S128 (logitBlk x0 x1 x3) 0xFF800000#32 reduces_S128x4096_S128 (.inl rfl) rfl)
      shapeCasts_S128_S128x1) broadcasts_S128x1_S128x4096))

theorem expBlk_apply (x0 : FVec Ideal S128x64 .bf16) (x1 : FVec Ideal S64x4096 .bf16) (x3 : FVec Ideal S128x4096 .f32) (p : Fin 128) (k : Fin 4096) :
    expBlk x0 x1 x3 (ix2 p k)
      = Spec.attnExp (C := 4096) (fun j => x0 (ix2 p j)) (fun j k => x1 (ix2 j k)) (fun k => x3 (ix2 p k)) k := by
  unfold expBlk Spec.attnExp Spec.attnMax
  rw [exp_apply, subf_apply, spread_apply, rowMax_apply, logitBlk_apply]
  simp only [logitBlk_apply]

/-- The body's result is the weights, each divided by its row's sum, times the attended table. -/
theorem pay_eq (x0 : FVec Ideal S128x64 .bf16) (x1 : FVec Ideal S64x4096 .bf16) (x3 : FVec Ideal S128x4096 .f32) (x2 : FVec Ideal S4096x64 .bf16) :
    k2_pay1 (F := Ideal) x0 x1 x3 x2
      = matmul dot_S128x4096_S4096x64_S128x64_1_0_0_1_n_n none
          (truncf .bf16 (divf (expBlk x0 x1 x3)
            (broadcastTo S128x4096 (shapeCast S128x1
              (multiReduction .add [1] S128 (expBlk x0 x1 x3) 0x00000000#32 reduces_S128x4096_S128 (.inl rfl) rfl)
              shapeCasts_S128_S128x1) broadcasts_S128x1_S128x4096)) bitsLt_bf16_f32)
          x2 (constant (F := Ideal) S128x64 .f32 0x00000000#32) := by
  unfold k2_pay1 expBlk logitBlk
  simp only [shapeCast_self]

/-- THE PAYLOAD AT AN INDEX: row `p`, feature `d` of what the body stores is the attention row of the block's row `p`. -/
theorem pay_apply (x0 : FVec Ideal S128x64 .bf16) (x1 : FVec Ideal S64x4096 .bf16) (x3 : FVec Ideal S128x4096 .f32) (x2 : FVec Ideal S4096x64 .bf16)
    (p : Fin 128) (d : Fin 64) :
    k2_pay1 (F := Ideal) x0 x1 x3 x2 (ix2 p d)
      = Spec.attnRow (C := 4096) (fun j => x0 (ix2 p j)) (fun j k => x1 (ix2 j k)) (fun k d => x2 (ix2 k d)) (fun k => x3 (ix2 p k)) d := by
  rw [pay_eq, mix_apply]
  unfold Spec.attnRow
  refine Finset.sum_congr rfl fun k _ => ?_
  rw [truncf_apply, divf_apply, spread_apply, rowSum_apply, expBlk_apply]
  simp only [expBlk_apply]

/-! ## What the body leaves in the output's staging buffer -/

theorem zeroOffsets : (![0, 0] : Fin 2 → Nat) = fun _ => 0 := funext fun a => by fin_cases a <;> rfl

/-- Row `p`, feature `d` of the staging buffer after the body: the one store covers the buffer, and each load reads its
    whole block. -/
theorem out_apply (x0 : Vec Ideal S128x64 .bf16) (x1 : Vec Ideal S64x4096 .bf16) (x2 : Vec Ideal S4096x64 .bf16)
    (x3 : Vec Ideal S128x4096 .f32) (p : Fin 128) (d : Fin 64) :
    out2_4 (F := Ideal) x0 x1 x2 x3 (ix2 p d)
      = Spec.attnRow (C := 4096) (fun j => x0 (ix2 p j)) (fun j k => x1 (ix2 j k)) (fun k d => x2 (ix2 k d)) (fun k => x3 (ix2 p k)) d := by
  unfold out2_4
  rw [View.canon_unit_zero zeroOffsets]
  simp only [View.ld_unit_zero (S := S128x64) zeroOffsets, View.ld_unit_zero (S := S64x4096) zeroOffsets,
    View.ld_unit_zero (S := S128x4096) zeroOffsets, View.ld_unit_zero (S := S4096x64) zeroOffsets]
  exact pay_apply x0 x1 x3 x2 p d

/-- Attention rows of equal data are equal. -/
theorem attnRow_congr {C : Nat} {e e' : Fin 64 → EReal} {anT anT' : Fin 64 → Fin C → EReal} {ae ae' : Fin C → Fin 64 → EReal}
    {a a' : Fin C → EReal} (he : e = e') (hanT : anT = anT') (hae : ae = ae') (ha : a = a') (d : Fin 64) :
    Spec.attnRow e anT ae a d = Spec.attnRow e' anT' ae' a' d := by
  subst he hanT hae ha; rfl

/-! ## From blocks to the array -/

/-- The index maps over the grid: the row blocks (embeddings, adjacency, output) move with the point, the two tables
    stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `p` of point `t`'s block of the normalised embeddings is row `128·t + p` of the array. -/
theorem embRow (c : Dev nD) (t : Fin cfg2.N) (p : Fin 128) (r : Fin 8192) (hr : r.val = t.val * 128 + p.val) :
    (fun j : Fin 64 => (iblk2 (F := Ideal) V c 0 t : FVec Ideal S128x64 .bf16) (ix2 p j))
      = fun j : Fin 64 => (V c main_v46 : S8192x64.Idx → EReal) (ix2 r j) := by
  obtain ⟨e0, e1, -⟩ := idx_facts t
  funext j
  unfold iblk2
  rw [View.read_apply]
  show V c main_v46 _ = V c main_v46 _
  refine congrArg _ (funext fun a => Fin.ext ?_)
  match a with
  | ⟨0, _⟩ => show win2_0.index t (0 : Fin 2) * 128 + 1 * p.val = r.val; omega
  | ⟨1, _⟩ => show win2_0.index t (1 : Fin 2) * 64 + 1 * j.val = j.val; omega

/-- Point `t`'s block of the transposed normalised table is the whole table. -/
theorem tableT (c : Dev nD) (t : Fin cfg2.N) :
    (fun (j : Fin 64) (k : Fin 4096) => (iblk2 (F := Ideal) V c 1 t : FVec Ideal S64x4096 .bf16) (ix2 j k))
      = fun (j : Fin 64) (k : Fin 4096) => (V c main_v53 : S64x4096.Idx → EReal) (ix2 j k) := by
  obtain ⟨-, -, e0, e1, -⟩ := idx_facts t
  funext j k
  unfold iblk2
  rw [View.read_apply]
  show V c main_v53 _ = V c main_v53 _
  refine congrArg _ (funext fun a => Fin.ext ?_)
  match a with
  | ⟨0, _⟩ => show win2_1.index t (0 : Fin 2) * 64 + 1 * j.val = j.val; omega
  | ⟨1, _⟩ => show win2_1.index t (1 : Fin 2) * 4096 + 1 * k.val = k.val; omega

/-- Point `t`'s block of the attended table is the whole table. -/
theorem table (c : Dev nD) (t : Fin cfg2.N) :
    (fun (k : Fin 4096) (d : Fin 64) => (iblk2 (F := Ideal) V c 2 t : FVec Ideal S4096x64 .bf16) (ix2 k d))
      = fun (k : Fin 4096) (d : Fin 64) => (V c main_v54 : S4096x64.Idx → EReal) (ix2 k d) := by
  obtain ⟨-, -, -, -, e0, e1, -⟩ := idx_facts t
  funext k d
  unfold iblk2
  rw [View.read_apply]
  show V c main_v54 _ = V c main_v54 _
  refine congrArg _ (funext fun a => Fin.ext ?_)
  match a with
  | ⟨0, _⟩ => show win2_2.index t (0 : Fin 2) * 4096 + 1 * k.val = k.val; omega
  | ⟨1, _⟩ => show win2_2.index t (1 : Fin 2) * 64 + 1 * d.val = d.val; omega

/-- Row `p` of point `t`'s block of the adjacency is row `128·t + p` of the array. -/
theorem adjRow (c : Dev nD) (t : Fin cfg2.N) (p : Fin 128) (r : Fin 8192) (hr : r.val = t.val * 128 + p.val) :
    (fun k : Fin 4096 => (iblk2 (F := Ideal) V c 3 t : FVec Ideal S128x4096 .f32) (ix2 p k))
      = fun k : Fin 4096 => (V c main_arg8 : S8192x4096.Idx → EReal) (ix2 r k) := by
  obtain ⟨-, -, -, -, -, -, e0, e1, -⟩ := idx_facts t
  funext k
  unfold iblk2
  rw [View.read_apply]
  show V c main_arg8 _ = V c main_arg8 _
  refine congrArg _ (funext fun a => Fin.ext ?_)
  match a with
  | ⟨0, _⟩ => show win2_3.index t (0 : Fin 2) * 128 + 1 * p.val = r.val; omega
  | ⟨1, _⟩ => show win2_3.index t (1 : Fin 2) * 4096 + 1 * k.val = k.val; omega

/-- Row `p`, feature `d` of point `t`'s output block sits at row `128·t + p`, feature `d` of the output array. -/
theorem outPos (t : Fin cfg2.N) (p : Fin 128) (d : Fin 64) (r : Fin 8192) (hr : r.val = t.val * 128 + p.val) :
    ((cfg2.win 4).blk t).view.emb (ix2 p d : S128x64.Idx) = (ix2 r d : S8192x64.Idx) := by
  obtain ⟨-, -, -, -, -, -, -, -, e0, e1⟩ := idx_facts t
  refine funext fun a => Fin.ext ?_
  match a with
  | ⟨0, _⟩ => show win2_4.index t (0 : Fin 2) * 128 + 1 * p.val = r.val; omega
  | ⟨1, _⟩ => show win2_4.index t (1 : Fin 2) * 64 + 1 * d.val = d.val; omega

/-- What point `t` writes back, entry by entry: the attention rows of the arrays, read at the entry's place in the array. -/
theorem flushed_apply (c : Dev nD) (t : Fin cfg2.N) (y : S128x64.Idx) :
    (dat2 (F := Ideal) V c).flushed 4 t y
      = Spec.attnArr (R := 8192) (C := 4096) (V c main_v46) (V c main_v53) (V c main_v54) (V c main_arg8)
          (((cfg2.win 4).blk t).view.emb y) := by
  obtain ⟨p, d, rfl⟩ : ∃ (p : Fin 128) (d : Fin 64), y = ix2 p d := ⟨y 0, y 1, eq_ix2 y⟩
  have hN : cfg2.N = 64 := N_2
  have hr : t.val * 128 + p.val < 8192 := by have := t.isLt; have := p.isLt; omega
  rw [outPos t p d ⟨t.val * 128 + p.val, hr⟩ rfl]
  show (cfg2.win 4).cut (grid2.coords t) ((dat2 V c).after 4 t) (ix2 p d) = _
  rw [after2_4]
  show out2_4 (iblk2 V c 0 t) (iblk2 V c 1 t) (iblk2 V c 2 t) (iblk2 V c 3 t) (ix2 p d) = _
  refine (out_apply (iblk2 V c 0 t) (iblk2 V c 1 t) (iblk2 V c 2 t) (iblk2 V c 3 t) p d).trans ?_
  exact attnRow_congr (embRow V c t p ⟨t.val * 128 + p.val, hr⟩ rfl) (tableT V c t) (table V c t)
    (adjRow V c t p ⟨t.val * 128 + p.val, hr⟩ rfl) d

/-- WHAT POINT `t` WRITES BACK is its block of the attention rows of the arrays as the region finds them. -/
theorem flushed_eq (c : Dev nD) (t : Fin cfg2.N) :
    (dat2 (F := Ideal) V c).flushed 4 t
      = ((cfg2.win 4).blk t).view.read (Elt Ideal)
          (Spec.attnArr (R := 8192) (C := 4096) (V c main_v46) (V c main_v53) (V c main_v54) (V c main_arg8)) := by
  funext y
  rw [View.read_apply]
  exact flushed_apply V c t y

/-- An index of the output array is in point `t`'s block iff each coordinate is in the block's range on its axis. -/
theorem mem_blk (t : Fin cfg2.N) (i : S8192x64.Idx) :
    i ∈ ((cfg2.win 4).blk t).view.set ↔ ∀ a : Fin 2, win2_4.index t a * S128x64.size a ≤ (i a).val ∧ (i a).val < win2_4.index t a * S128x64.size a + S128x64.size a := by
  show i ∈ ((View.whole main_v55).slice (win2_4.rect t)).set ↔ _
  rw [View.set_slice_whole, Rect.mem_set_unit]
  exact Iff.rfl

/-- Every row of the output is written: row `r` by point `r / 128`. -/
theorem cover (i : S8192x64.Idx) : ∃ t : Fin cfg2.N, (cfg2.win 4).flush t = true ∧ i ∈ ((cfg2.win 4).blk t).view.set := by
  have hi0 : (i 0).val < 8192 := (i 0).isLt
  have hi1 : (i 1).val < 64 := (i 1).isLt
  have hN : cfg2.N = 64 := N_2
  obtain ⟨t, ht⟩ : ∃ t : Fin cfg2.N, t.val = (i 0).val / 128 := ⟨⟨(i 0).val / 128, by omega⟩, rfl⟩
  obtain ⟨-, -, -, -, -, -, -, -, e0, e1⟩ := idx_facts t
  refine ⟨t, flush2_4 t, ?_⟩
  rw [mem_blk]
  intro a
  match a with
  | ⟨0, _⟩ => show win2_4.index t (0 : Fin 2) * 128 ≤ (i 0).val ∧ (i 0).val < win2_4.index t (0 : Fin 2) * 128 + 128; omega
  | ⟨1, _⟩ => show win2_4.index t (1 : Fin 2) * 64 ≤ (i 1).val ∧ (i 1).val < win2_4.index t (1 : Fin 2) * 64 + 64; omega

/-- What region 2 leaves in its output array, whatever the buffers hold when it is entered: the attention rows of the
    four arrays it is given. -/
theorem arrAt (c : Dev nD) :
    (dat2 (F := Ideal) V c).arrAt 4 cfg2.N
      = Spec.attnArr (R := 8192) (C := 4096) (V c main_v46) (V c main_v53) (V c main_v54) (V c main_arg8) := by
  exact (dat2 (F := Ideal) V c).arrAt_eq_of_cover 4 _ (fun t _ => flushed_eq V c t) cover

end Cert.KernelIdeal.Region2

end
-- ==== Proof.RefEdge.lean ====
import proofs.«416156_j1846835937281_3_alg».proof.Proof.Gen.ReferenceIdeal.Read
import proofs.«416156_j1846835937281_3_alg».proof.Proof.Spec
import Idealize.ShloMosaic.Lib.Pipeline.Value
import Idealize.ShloMosaic.Lib.ValueIdx
import Idealize.ShloMosaic.PureOps.Ideal.Laws

noncomputable section

namespace Cert.ReferenceIdeal.RefEdge

open Idealize.ShloMosaic Idealize.ShloMosaic.TcCoe Idealize.SL.Sem Idealize.ShloMosaic.ValueIdx
open Cert.ReferenceIdeal Cert.ReferenceIdeal.Read

/-- The word `0x3F800000` denotes one. -/
theorem one_word : Ideal.ofBits .f32 0x3F800000#32 = 1 := IdealRules.sign_bit.ideal_onePat .f32

section stages

variable (x0 : (⟨S100000x64, .f32⟩ : BufTy).Contents (Elt Ideal)) (x1 : (⟨S64x1, .f32⟩ : BufTy).Contents (Elt Ideal))
  (x2 : (⟨S64, .f32⟩ : BufTy).Contents (Elt Ideal)) (x3 : (⟨S1x64, .f32⟩ : BufTy).Contents (Elt Ideal))
  (x4 : (⟨S1, .f32⟩ : BufTy).Contents (Elt Ideal)) (x9 : (⟨S2x1250000, .i32⟩ : BufTy).Contents (Elt Ideal))

/-- Stages `%19 … %22`: the pooled mean of row `r` of the products, the row's sum (taken from zero) divided by 64. -/
theorem mean_eq (r : Fin 1250000) :
    val_main_v22 (F := Ideal) x0 x9 (ix2 r (0 : Fin 1))
      = Ideal.div (∑ j : Fin 64, val_main_v18 (F := Ideal) x0 x9 (ix2 r j)) (Ideal.ofBits .f32 0x42800000#32) := by
  have e : ∀ k : Fin 64, idx_main_v19 (idx_main_v20 (ix2 r (0 : Fin 1))) k = ix2 r k := fun k =>
    funext fun a => Fin.ext (by match a with | ⟨0, _⟩ => rfl | ⟨1, _⟩ => rfl)
  rw [val_main_v22_apply, val_main_v20_apply, val_main_v19_apply, val_main_v21_apply, val_main_cst_3_apply,
    val_main_cst_apply]
  simp only [Ideal.hostDivf_def, Ideal.ofBits_def, Ideal.ofBits_zero_f32, zero_add]
  refine congrArg (fun s => Ideal.div s _) (Finset.sum_congr rfl fun k _ => ?_)
  rw [e k]

/-- Stages `%23 … %28`: unit `k` of the hidden layer of row `r`. The contraction with the transposed first weight has
    one term; the bias is broadcast along the rows; the clip is a maximum with the zero word. -/
theorem hidden_eq (r : Fin 1250000) (k : Fin 64) :
    val_main_v28 (F := Ideal) x0 x1 x2 x9 (ix2 r k)
      = Spec.edgeHidden (fun j => val_main_v18 (F := Ideal) x0 x9 (ix2 r j)) (fun k => x1 (ix2 k 0))
          (fun k => x2 (ix1 k)) k := by
  have el : lidx_main_v24 (ix2 r k) (0 : Fin 1) = ix2 r (0 : Fin 1) :=
    funext fun a => Fin.ext (by match a with | ⟨0, _⟩ => rfl | ⟨1, _⟩ => rfl)
  have er : idx_main_v23 (ridx_main_v24 (ix2 r k) (0 : Fin 1)) = ix2 k (0 : Fin 1) :=
    funext fun a => Fin.ext (by match a with | ⟨0, _⟩ => rfl | ⟨1, _⟩ => rfl)
  have eb : idx_main_v25 (idx_main_v26 (ix2 r k)) = ix1 k :=
    funext fun a => Fin.ext (by match a with | ⟨0, _⟩ => rfl)
  rw [val_main_v28_apply, val_main_v27_apply, val_main_v24_apply, Fin.sum_univ_one, el, val_main_v23_apply, er,
    mean_eq, val_main_v26_apply, val_main_v25_apply, eb, val_main_call0_v0_apply, val_main_call0_cst_apply]
  simp only [Ideal.maximumf_def, Ideal.addf_def, Ideal.ofBits_def, Ideal.ofBits_zero_f32, Spec.edgeHidden]

/-- Stages `%29 … %33`: the gate's logit of row `r`, the hidden layer contracted with the transposed second weight
    plus the broadcast second bias. -/
theorem logit_eq (r : Fin 1250000) :
    val_main_v33 (F := Ideal) x0 x1 x2 x3 x4 x9 (ix2 r (0 : Fin 1))
      = (∑ k : Fin 64, Spec.edgeHidden (fun j => val_main_v18 (F := Ideal) x0 x9 (ix2 r j)) (fun k => x1 (ix2 k 0))
            (fun k => x2 (ix1 k)) k * x3 (ix2 0 k)) + x4 (ix1 0) := by
  have el : ∀ k : Fin 64, lidx_main_v30 (ix2 r (0 : Fin 1)) k = ix2 r k := fun k =>
    funext fun a => Fin.ext (by match a with | ⟨0, _⟩ => rfl | ⟨1, _⟩ => rfl)
  have er : ∀ k : Fin 64, idx_main_v29 (ridx_main_v30 (ix2 r (0 : Fin 1)) k) = ix2 (0 : Fin 1) k := fun k =>
    funext fun a => Fin.ext (by match a with | ⟨0, _⟩ => rfl | ⟨1, _⟩ => rfl)
  have eb : idx_main_v31 (idx_main_v32 (ix2 r (0 : Fin 1))) = ix1 (0 : Fin 1) :=
    funext fun a => Fin.ext (by match a with | ⟨0, _⟩ => rfl)
  rw [val_main_v33_apply, val_main_v30_apply, val_main_v32_apply, val_main_v31_apply, eb, Ideal.addf_def]
  refine congrArg (fun s => s + _) (Finset.sum_congr rfl fun k _ => ?_)
  rw [el k, val_main_v29_apply, er k, hidden_eq]

/-- Stages `%34 … %39`: the gate of row `r`, one over one plus the exponential of the negated logit: the logistic
    function. -/
theorem gate_eq (r : Fin 1250000) :
    val_main_v39 (F := Ideal) x0 x1 x2 x3 x4 x9 (ix2 r (0 : Fin 1))
      = Spec.edgeGate (fun j => val_main_v18 (F := Ideal) x0 x9 (ix2 r j)) (fun k => x1 (ix2 k 0))
          (fun k => x2 (ix1 k)) (fun k => x3 (ix2 0 k)) (x4 (ix1 0)) := by
  rw [val_main_v39_apply, val_main_v38_apply, val_main_cst_5_apply, val_main_v37_apply, val_main_v36_apply,
    val_main_cst_4_apply, val_main_v35_apply, val_main_v34_apply, logit_eq]
  simp only [Ideal.hostDivf_def, Ideal.addf_def, Ideal.hostUnary_exp_def, Ideal.hostNegf_def, Ideal.negf_def,
    Ideal.ofBits_def, one_word, Spec.edgeGate, Ideal.logistic]

/-- Stages `%40 … %42`: component `d` of the message of row `r`, the gate broadcast along the row, times the product,
    plus the product. -/
theorem row_eq (r : Fin 1250000) (d : Fin 64) :
    val_main_v42 (F := Ideal) x0 x1 x2 x3 x4 x9 (ix2 r d)
      = Spec.edgeRow (fun j => val_main_v18 (F := Ideal) x0 x9 (ix2 r j)) (fun k => x1 (ix2 k 0))
          (fun k => x2 (ix1 k)) (fun k => x3 (ix2 0 k)) (x4 (ix1 0)) d := by
  have e : idx_main_v40 (ix2 r d) = ix2 r (0 : Fin 1) :=
    funext fun a => Fin.ext (by match a with | ⟨0, _⟩ => rfl | ⟨1, _⟩ => rfl)
  rw [val_main_v42_apply, val_main_v41_apply, val_main_v40_apply, e, gate_eq]
  simp only [Ideal.addf_def, Ideal.mulf_def, Spec.edgeRow]

end stages

/-- The reference's message array, as a function of the products array `%18` and the four parameters, is the
    specification's: read index by index through the stages `%19 … %42`. -/
theorem msg_eq (x0 : (⟨S100000x64, .f32⟩ : BufTy).Contents (Elt Ideal)) (x1 : (⟨S64x1, .f32⟩ : BufTy).Contents (Elt Ideal))
    (x2 : (⟨S64, .f32⟩ : BufTy).Contents (Elt Ideal)) (x3 : (⟨S1x64, .f32⟩ : BufTy).Contents (Elt Ideal))
    (x4 : (⟨S1, .f32⟩ : BufTy).Contents (Elt Ideal)) (x9 : (⟨S2x1250000, .i32⟩ : BufTy).Contents (Elt Ideal)) :
    val_main_v42 (F := Ideal) x0 x1 x2 x3 x4 x9
      = Spec.msgArr (val_main_v18 (F := Ideal) x0 x9) (fun k => x1 (ix2 k 0)) (fun k => x2 (ix1 k)) (fun k => x3 (ix2 0 k))
          (x4 (ix1 0)) := by
  funext i
  obtain ⟨r, d, rfl⟩ : ∃ (r : Fin 1250000) (d : Fin 64), i = ix2 r d := ⟨i 0, i 1, eq_ix2 i⟩
  rw [row_eq]
  generalize val_main_v18 (F := Ideal) x0 x9 = p
  rfl

end Cert.ReferenceIdeal.RefEdge

end
-- ==== Proof.RefAttn1.lean ====
import proofs.«416156_j1846835937281_3_alg».proof.Proof.Gen.ReferenceIdeal.Read
import proofs.«416156_j1846835937281_3_alg».proof.Proof.Spec
import Idealize.ShloMosaic.Lib.Pipeline.Value
import Idealize.ShloMosaic.Lib.ValueIdx
import Idealize.ShloMosaic.PureOps.Ideal.Laws

noncomputable section

namespace Cert.ReferenceIdeal.RefAttn1

open Idealize.ShloMosaic Idealize.ShloMosaic.TcCoe Idealize.SL.Sem Idealize.ShloMosaic.ValueIdx
open Cert.ReferenceIdeal Cert.ReferenceIdeal.Read

/-! ## Which entries each stage reads

Row `r` of the result depends on row `r` of the normalised embeddings and of the adjacency only; the entry `(r, k)`
of every `4096 × 8192` stage reads its operands at `(r, j)`, `(j, k)`, `(r, k)`, the row stages at `r`. -/

theorem lidx57 (r : Fin 4096) (k : Fin 8192) (j : Fin 64) : lidx_main_v57 (ix2 r k) j = ix2 r j :=
  funext fun a => Fin.ext (by match a with | ⟨0, _⟩ => rfl | ⟨1, _⟩ => rfl)

theorem ridx57 (r : Fin 4096) (k : Fin 8192) (j : Fin 64) : ridx_main_v57 (ix2 r k) j = ix2 j k :=
  funext fun a => Fin.ext (by match a with | ⟨0, _⟩ => rfl | ⟨1, _⟩ => rfl)

theorem idx65_66 (r : Fin 4096) (k : Fin 8192) : idx_main_v65 (idx_main_v66 (ix2 r k)) = ix1 r :=
  funext fun a => Fin.ext (by match a with | ⟨0, _⟩ => rfl)

theorem idx69 (r : Fin 4096) (k : Fin 8192) : idx_main_v69 (ix1 r) k = ix2 r k :=
  funext fun a => Fin.ext (by match a with | ⟨0, _⟩ => rfl | ⟨1, _⟩ => rfl)

theorem idx70_71 (r : Fin 4096) (k : Fin 8192) : idx_main_v70 (idx_main_v71 (ix2 r k)) = ix1 r :=
  funext fun a => Fin.ext (by match a with | ⟨0, _⟩ => rfl)

theorem lidx73 (r : Fin 4096) (d : Fin 64) (k : Fin 8192) : lidx_main_v73 (ix2 r d) k = ix2 r k :=
  funext fun a => Fin.ext (by match a with | ⟨0, _⟩ => rfl | ⟨1, _⟩ => rfl)

theorem ridx73 (r : Fin 4096) (d : Fin 64) (k : Fin 8192) : ridx_main_v73 (ix2 r d) k = ix2 k d :=
  funext fun a => Fin.ext (by match a with | ⟨0, _⟩ => rfl | ⟨1, _⟩ => rfl)

/-! ## The masked similarity (`%57 … %61`) -/

/-- Entry `(r, k)` of the masked similarity: the product of row `r` of the normalised embeddings with column `k` of
    the transposed normalised table, times the adjacency entry, kept where it differs from zero and replaced by the
    fill word elsewhere. "Unordered or not equal" and "ordered and not equal" are the same test on extended reals. -/
theorem logit_eq (x5 : (⟨S4096x64, .f32⟩ : BufTy).Contents (Elt Ideal)) (x6 : (⟨S8192x64, .f32⟩ : BufTy).Contents (Elt Ideal))
    (x7 : (⟨S4096x8192, .f32⟩ : BufTy).Contents (Elt Ideal)) (r : Fin 4096) (k : Fin 8192) :
    val_main_v61 (F := Ideal) x5 x6 x7 (ix2 r k)
      = Spec.attnLogit (fun j => val_main_v50 (F := Ideal) x5 (ix2 r j)) (fun j k => val_main_v56 (F := Ideal) x6 (ix2 j k))
          (fun k => x7 (ix2 r k)) k := by
  rw [val_main_v61_apply, val_main_v60_apply, val_main_v58_apply, val_main_v57_apply, val_main_v59_apply,
    val_main_cst_9_apply, val_main_call3_v1_apply, val_main_call3_v0_apply, val_main_cst_10_apply]
  generalize val_main_v50 (F := Ideal) x5 = e
  generalize val_main_v56 (F := Ideal) x6 = t
  simp only [lidx57, ridx57, Ideal.mulf_def, Ideal.cmpf_def, Ideal.ofBits_def, Ideal.ofBits_zero_f32]
  rfl

/-! ## The row maximum (`%62 … %64`) -/

/-- Row `r` of the reduced array with coordinate `k` put back on the dropped axis is the entry `(r, k)`. -/
theorem lift_row (h : S4096x8192.Reduces [1] S4096) (r : Fin 4096) (k : Fin 8192) : h.lift (ix1 r) k = ix2 r k :=
  funext fun a => Fin.ext (by match a with | ⟨0, _⟩ => rfl | ⟨1, _⟩ => rfl)

/-- A reduction of a `4096 × 8192` array along its rows by the maximum, at row `r`: the fold of `max` over the
    8192 entries of that row, from the initial value. -/
theorem rowMax_fold (y : S4096x8192.Idx → Ideal .f32) (init : S_.Idx → Ideal .f32) (r : Fin 4096) :
    Host.reduce FloatOps.maximumf y init Gen.reducesTo_S4096x8192_S4096_d1 Gen.h_S_ (ix1 r)
      = (Finset.univ : Finset (Fin 8192)).fold max (init (Shape.Idx.first Gen.h_S_)) (fun k => y (ix2 r k)) := by
  have h : S4096x8192.Reduces [1] S4096 := by decide
  have e := Host.reduce_eq_fold_single (FloatOps.maximumf (F := Ideal) (φ := .f32)) y init
    Gen.reducesTo_S4096x8192_S4096_d1 h Gen.h_S_ (ix1 r)
  have hf : (y ∘ h.lift (ix1 r)) = fun k : Fin 8192 => y (ix2 r k) := funext fun k => congrArg y (lift_row h r k)
  rw [hf] at e
  exact e

/-- Entry `r` of the row maximum: the maximum of the masked similarities of row `r`, taken from `-∞`. The second
    maximum with `-∞` changes nothing, because the fold already starts from that word. -/
theorem max_eq (x5 : (⟨S4096x64, .f32⟩ : BufTy).Contents (Elt Ideal)) (x6 : (⟨S8192x64, .f32⟩ : BufTy).Contents (Elt Ideal))
    (x7 : (⟨S4096x8192, .f32⟩ : BufTy).Contents (Elt Ideal)) (r : Fin 4096) :
    val_main_v64 (F := Ideal) x5 x6 x7 (ix1 r)
      = Spec.attnMax (fun j => val_main_v50 (F := Ideal) x5 (ix2 r j)) (fun j k => val_main_v56 (F := Ideal) x6 (ix2 j k))
          (fun k => x7 (ix2 r k)) := by
  have hy := logit_eq x5 x6 x7 r
  rw [val_main_v64_apply, val_main_v63_apply, val_main_cst_12_apply]
  unfold val_main_v62
  generalize val_main_v61 (F := Ideal) x5 x6 x7 = y at hy ⊢
  generalize val_main_v50 (F := Ideal) x5 = e at hy ⊢
  generalize val_main_v56 (F := Ideal) x6 = t at hy ⊢
  rw [rowMax_fold y _ r, val_main_cst_11_apply, show (fun k => y (ix2 r k)) = _ from funext hy]
  simp only [Ideal.ofBits_def, Ideal.maximumf_def]
  unfold Spec.attnMax
  exact max_eq_right ((Finset.le_fold_max _).mpr (Or.inl le_rfl))

/-! ## The soft-max weights (`%65 … %72`) -/

/-- Entry `(r, k)` of the exponential: the masked similarity less the row's maximum, exponentiated. -/
theorem exp_eq (x5 : (⟨S4096x64, .f32⟩ : BufTy).Contents (Elt Ideal)) (x6 : (⟨S8192x64, .f32⟩ : BufTy).Contents (Elt Ideal))
    (x7 : (⟨S4096x8192, .f32⟩ : BufTy).Contents (Elt Ideal)) (r : Fin 4096) (k : Fin 8192) :
    val_main_v68 (F := Ideal) x5 x6 x7 (ix2 r k)
      = Spec.attnExp (fun j => val_main_v50 (F := Ideal) x5 (ix2 r j)) (fun j k => val_main_v56 (F := Ideal) x6 (ix2 j k))
          (fun k => x7 (ix2 r k)) k := by
  rw [val_main_v68_apply, val_main_v67_apply, val_main_v66_apply, val_main_v65_apply, idx65_66, logit_eq, max_eq]
  simp only [Ideal.hostUnary_exp_def, Ideal.subf_def]
  rfl

/-- Entry `r` of the row sum: the sum of the row's 8192 weights (the sum starts from zero). -/
theorem sum_eq (x5 : (⟨S4096x64, .f32⟩ : BufTy).Contents (Elt Ideal)) (x6 : (⟨S8192x64, .f32⟩ : BufTy).Contents (Elt Ideal))
    (x7 : (⟨S4096x8192, .f32⟩ : BufTy).Contents (Elt Ideal)) (r : Fin 4096) :
    val_main_v69 (F := Ideal) x5 x6 x7 (ix1 r)
      = ∑ k : Fin 8192, Spec.attnExp (fun j => val_main_v50 (F := Ideal) x5 (ix2 r j))
          (fun j k => val_main_v56 (F := Ideal) x6 (ix2 j k)) (fun k => x7 (ix2 r k)) k := by
  rw [val_main_v69_apply, val_main_cst_13_apply]
  simp only [idx69, exp_eq, Ideal.ofBits_def, Ideal.ofBits_zero_f32, zero_add]

/-- Entry `(r, k)` of the normalised weights: the weight over the row's sum. -/
theorem weight_eq (x5 : (⟨S4096x64, .f32⟩ : BufTy).Contents (Elt Ideal)) (x6 : (⟨S8192x64, .f32⟩ : BufTy).Contents (Elt Ideal))
    (x7 : (⟨S4096x8192, .f32⟩ : BufTy).Contents (Elt Ideal)) (r : Fin 4096) (k : Fin 8192) :
    val_main_v72 (F := Ideal) x5 x6 x7 (ix2 r k)
      = Ideal.div
          (Spec.attnExp (fun j => val_main_v50 (F := Ideal) x5 (ix2 r j)) (fun j k => val_main_v56 (F := Ideal) x6 (ix2 j k))
            (fun k => x7 (ix2 r k)) k)
          (∑ k' : Fin 8192, Spec.attnExp (fun j => val_main_v50 (F := Ideal) x5 (ix2 r j))
            (fun j k => val_main_v56 (F := Ideal) x6 (ix2 j k)) (fun k => x7 (ix2 r k)) k') := by
  rw [val_main_v72_apply, val_main_v71_apply, val_main_v70_apply, idx70_71, exp_eq, sum_eq]
  rfl

/-- The reference's first attention result, as a function of the normalised user table `%50`, the transposed
    normalised item table `%56`, the item table and the user adjacency, is the specification's: read index by index
    through the stages `%57 … %73`. -/
theorem attn_eq (x5 : (⟨S4096x64, .f32⟩ : BufTy).Contents (Elt Ideal)) (x6 : (⟨S8192x64, .f32⟩ : BufTy).Contents (Elt Ideal))
    (x7 : (⟨S4096x8192, .f32⟩ : BufTy).Contents (Elt Ideal)) :
    val_main_v73 (F := Ideal) x5 x6 x7
      = Spec.attnArr (R := 4096) (C := 8192) (val_main_v50 (F := Ideal) x5) (val_main_v56 (F := Ideal) x6) x6 x7 := by
  funext i
  obtain ⟨r, d, rfl⟩ : ∃ (r : Fin 4096) (d : Fin 64), i = ix2 r d := ⟨i 0, i 1, eq_ix2 i⟩
  rw [val_main_v73_apply]
  simp only [lidx73, ridx73, weight_eq]
  rfl

end Cert.ReferenceIdeal.RefAttn1

end
-- ==== Proof.RefAttn2.lean ====
import proofs.«416156_j1846835937281_3_alg».proof.Proof.Gen.ReferenceIdeal.Read
import proofs.«416156_j1846835937281_3_alg».proof.Proof.Spec
import Idealize.ShloMosaic.Lib.Pipeline.Value
import Idealize.ShloMosaic.Lib.ValueIdx
import Idealize.ShloMosaic.PureOps.Ideal.Laws

noncomputable section

namespace Cert.ReferenceIdeal.RefAttn2

open Idealize.ShloMosaic Idealize.ShloMosaic.TcCoe Idealize.SL.Sem Idealize.ShloMosaic.ValueIdx
open Cert.ReferenceIdeal Cert.ReferenceIdeal.Read

/-! ## Which entries each stage reads

Row `r` of the result depends on row `r` of the normalised embeddings and of the adjacency only; the entry `(r, k)`
of every `8192 × 4096` stage reads its operands at `(r, j)`, `(j, k)`, `(r, k)`, the row stages at `r`. -/

theorem lidx85 (r : Fin 8192) (k : Fin 4096) (j : Fin 64) : lidx_main_v85 (ix2 r k) j = ix2 r j :=
  funext fun a => Fin.ext (by match a with | ⟨0, _⟩ => rfl | ⟨1, _⟩ => rfl)

theorem ridx85 (r : Fin 8192) (k : Fin 4096) (j : Fin 64) : ridx_main_v85 (ix2 r k) j = ix2 j k :=
  funext fun a => Fin.ext (by match a with | ⟨0, _⟩ => rfl | ⟨1, _⟩ => rfl)

theorem idx93_94 (r : Fin 8192) (k : Fin 4096) : idx_main_v93 (idx_main_v94 (ix2 r k)) = ix1 r :=
  funext fun a => Fin.ext (by match a with | ⟨0, _⟩ => rfl)

theorem idx97 (r : Fin 8192) (k : Fin 4096) : idx_main_v97 (ix1 r) k = ix2 r k :=
  funext fun a => Fin.ext (by match a with | ⟨0, _⟩ => rfl | ⟨1, _⟩ => rfl)

theorem idx80_71 (r : Fin 8192) (k : Fin 4096) : idx_main_v98 (idx_main_v99 (ix2 r k)) = ix1 r :=
  funext fun a => Fin.ext (by match a with | ⟨0, _⟩ => rfl)

theorem lidx83 (r : Fin 8192) (d : Fin 64) (k : Fin 4096) : lidx_main_v101 (ix2 r d) k = ix2 r k :=
  funext fun a => Fin.ext (by match a with | ⟨0, _⟩ => rfl | ⟨1, _⟩ => rfl)

theorem ridx83 (r : Fin 8192) (d : Fin 64) (k : Fin 4096) : ridx_main_v101 (ix2 r d) k = ix2 k d :=
  funext fun a => Fin.ext (by match a with | ⟨0, _⟩ => rfl | ⟨1, _⟩ => rfl)

/-! ## The masked similarity (`%85 … %89`) -/

/-- Entry `(r, k)` of the masked similarity: the product of row `r` of the normalised embeddings with column `k` of
    the transposed normalised table, times the adjacency entry, kept where it differs from zero and replaced by the
    fill word elsewhere. "Unordered or not equal" and "ordered and not equal" are the same test on extended reals. -/
theorem logit_eq (x5 : (⟨S4096x64, .f32⟩ : BufTy).Contents (Elt Ideal)) (x6 : (⟨S8192x64, .f32⟩ : BufTy).Contents (Elt Ideal))
    (x8 : (⟨S8192x4096, .f32⟩ : BufTy).Contents (Elt Ideal)) (r : Fin 8192) (k : Fin 4096) :
    val_main_v89 (F := Ideal) x5 x6 x8 (ix2 r k)
      = Spec.attnLogit (fun j => val_main_v78 (F := Ideal) x6 (ix2 r j)) (fun j k => val_main_v84 (F := Ideal) x5 (ix2 j k))
          (fun k => x8 (ix2 r k)) k := by
  rw [val_main_v89_apply, val_main_v88_apply, val_main_v86_apply, val_main_v85_apply, val_main_v87_apply,
    val_main_cst_16_apply, val_main_call6_v1_apply, val_main_call6_v0_apply, val_main_cst_17_apply]
  generalize val_main_v78 (F := Ideal) x6 = e
  generalize val_main_v84 (F := Ideal) x5 = t
  simp only [lidx85, ridx85, Ideal.mulf_def, Ideal.cmpf_def, Ideal.ofBits_def, Ideal.ofBits_zero_f32]
  rfl

/-! ## The row maximum (`%90 … %92`) -/

/-- Row `r` of the reduced array with coordinate `k` put back on the dropped axis is the entry `(r, k)`. -/
theorem lift_row (h : S8192x4096.Reduces [1] S8192) (r : Fin 8192) (k : Fin 4096) : h.lift (ix1 r) k = ix2 r k :=
  funext fun a => Fin.ext (by match a with | ⟨0, _⟩ => rfl | ⟨1, _⟩ => rfl)

/-- A reduction of a `8192 × 4096` array along its rows by the maximum, at row `r`: the fold of `max` over the
    4096 entries of that row, from the initial value. -/
theorem rowMax_fold (y : S8192x4096.Idx → Ideal .f32) (init : S_.Idx → Ideal .f32) (r : Fin 8192) :
    Host.reduce FloatOps.maximumf y init Gen.reducesTo_S8192x4096_S8192_d1 Gen.h_S_ (ix1 r)
      = (Finset.univ : Finset (Fin 4096)).fold max (init (Shape.Idx.first Gen.h_S_)) (fun k => y (ix2 r k)) := by
  have h : S8192x4096.Reduces [1] S8192 := by decide
  have e := Host.reduce_eq_fold_single (FloatOps.maximumf (F := Ideal) (φ := .f32)) y init
    Gen.reducesTo_S8192x4096_S8192_d1 h Gen.h_S_ (ix1 r)
  have hf : (y ∘ h.lift (ix1 r)) = fun k : Fin 4096 => y (ix2 r k) := funext fun k => congrArg y (lift_row h r k)
  rw [hf] at e
  exact e

/-- Entry `r` of the row maximum: the maximum of the masked similarities of row `r`, taken from `-∞`. The second
    maximum with `-∞` changes nothing, because the fold already starts from that word. -/
theorem max_eq (x5 : (⟨S4096x64, .f32⟩ : BufTy).Contents (Elt Ideal)) (x6 : (⟨S8192x64, .f32⟩ : BufTy).Contents (Elt Ideal))
    (x8 : (⟨S8192x4096, .f32⟩ : BufTy).Contents (Elt Ideal)) (r : Fin 8192) :
    val_main_v92 (F := Ideal) x5 x6 x8 (ix1 r)
      = Spec.attnMax (fun j => val_main_v78 (F := Ideal) x6 (ix2 r j)) (fun j k => val_main_v84 (F := Ideal) x5 (ix2 j k))
          (fun k => x8 (ix2 r k)) := by
  have hy := logit_eq x5 x6 x8 r
  rw [val_main_v92_apply, val_main_v91_apply, val_main_cst_19_apply]
  unfold val_main_v90
  generalize val_main_v89 (F := Ideal) x5 x6 x8 = y at hy ⊢
  generalize val_main_v78 (F := Ideal) x6 = e at hy ⊢
  generalize val_main_v84 (F := Ideal) x5 = t at hy ⊢
  rw [rowMax_fold y _ r, val_main_cst_18_apply, show (fun k => y (ix2 r k)) = _ from funext hy]
  simp only [Ideal.ofBits_def, Ideal.maximumf_def]
  unfold Spec.attnMax
  exact max_eq_right ((Finset.le_fold_max _).mpr (Or.inl le_rfl))

/-! ## The soft-max weights (`%93 … %100`) -/

/-- Entry `(r, k)` of the exponential: the masked similarity less the row's maximum, exponentiated. -/
theorem exp_eq (x5 : (⟨S4096x64, .f32⟩ : BufTy).Contents (Elt Ideal)) (x6 : (⟨S8192x64, .f32⟩ : BufTy).Contents (Elt Ideal))
    (x8 : (⟨S8192x4096, .f32⟩ : BufTy).Contents (Elt Ideal)) (r : Fin 8192) (k : Fin 4096) :
    val_main_v96 (F := Ideal) x5 x6 x8 (ix2 r k)
      = Spec.attnExp (fun j => val_main_v78 (F := Ideal) x6 (ix2 r j)) (fun j k => val_main_v84 (F := Ideal) x5 (ix2 j k))
          (fun k => x8 (ix2 r k)) k := by
  rw [val_main_v96_apply, val_main_v95_apply, val_main_v94_apply, val_main_v93_apply, idx93_94, logit_eq, max_eq]
  simp only [Ideal.hostUnary_exp_def, Ideal.subf_def]
  rfl

/-- Entry `r` of the row sum: the sum of the row's 4096 weights (the sum starts from zero). -/
theorem sum_eq (x5 : (⟨S4096x64, .f32⟩ : BufTy).Contents (Elt Ideal)) (x6 : (⟨S8192x64, .f32⟩ : BufTy).Contents (Elt Ideal))
    (x8 : (⟨S8192x4096, .f32⟩ : BufTy).Contents (Elt Ideal)) (r : Fin 8192) :
    val_main_v97 (F := Ideal) x5 x6 x8 (ix1 r)
      = ∑ k : Fin 4096, Spec.attnExp (fun j => val_main_v78 (F := Ideal) x6 (ix2 r j))
          (fun j k => val_main_v84 (F := Ideal) x5 (ix2 j k)) (fun k => x8 (ix2 r k)) k := by
  rw [val_main_v97_apply, val_main_cst_20_apply]
  simp only [idx97, exp_eq, Ideal.ofBits_def, Ideal.ofBits_zero_f32, zero_add]

/-- Entry `(r, k)` of the normalised weights: the weight over the row's sum. -/
theorem weight_eq (x5 : (⟨S4096x64, .f32⟩ : BufTy).Contents (Elt Ideal)) (x6 : (⟨S8192x64, .f32⟩ : BufTy).Contents (Elt Ideal))
    (x8 : (⟨S8192x4096, .f32⟩ : BufTy).Contents (Elt Ideal)) (r : Fin 8192) (k : Fin 4096) :
    val_main_v100 (F := Ideal) x5 x6 x8 (ix2 r k)
      = Ideal.div
          (Spec.attnExp (fun j => val_main_v78 (F := Ideal) x6 (ix2 r j)) (fun j k => val_main_v84 (F := Ideal) x5 (ix2 j k))
            (fun k => x8 (ix2 r k)) k)
          (∑ k' : Fin 4096, Spec.attnExp (fun j => val_main_v78 (F := Ideal) x6 (ix2 r j))
            (fun j k => val_main_v84 (F := Ideal) x5 (ix2 j k)) (fun k => x8 (ix2 r k)) k') := by
  rw [val_main_v100_apply, val_main_v99_apply, val_main_v98_apply, idx80_71, exp_eq, sum_eq]
  rfl

/-- The reference's second attention result, as a function of the normalised item table `%78`, the transposed
    normalised user table `%84`, the user table and the item adjacency, is the specification's: read index by index
    through the stages `%85 … %101`. -/
theorem attn_eq (x5 : (⟨S4096x64, .f32⟩ : BufTy).Contents (Elt Ideal)) (x6 : (⟨S8192x64, .f32⟩ : BufTy).Contents (Elt Ideal))
    (x8 : (⟨S8192x4096, .f32⟩ : BufTy).Contents (Elt Ideal)) :
    val_main_v101 (F := Ideal) x5 x6 x8
      = Spec.attnArr (R := 8192) (C := 4096) (val_main_v78 (F := Ideal) x6) (val_main_v84 (F := Ideal) x5) x5 x8 := by
  funext i
  obtain ⟨r, d, rfl⟩ : ∃ (r : Fin 8192) (d : Fin 64), i = ix2 r d := ⟨i 0, i 1, eq_ix2 i⟩
  rw [val_main_v101_apply]
  simp only [lidx83, ridx83, weight_eq]
  rfl

end Cert.ReferenceIdeal.RefAttn2

end
-- ==== Proof.Results.lean ====
/-
  The three results of the kernel program, as the reference's own terms of the arguments.

  Each result buffer is read back through the fold of the program's segments. The first is the scatter-add, over
  the edge list's second row, of the first region's output — the messages of the products array, by the region's
  value — and the reference scatter-adds the same messages (its edge stages read index by index) over the same
  ids. The second and third are the attention regions' outputs: the attention rows of the normalised tables, the
  attended table and the adjacency, which is what the reference's attention stages compute, row by row.
-/
import proofs.«416156_j1846835937281_3_alg».proof.Proof.Entry0
import proofs.«416156_j1846835937281_3_alg».proof.Proof.Entry1
import proofs.«416156_j1846835937281_3_alg».proof.Proof.Entry2
import proofs.«416156_j1846835937281_3_alg».proof.Proof.Region0
import proofs.«416156_j1846835937281_3_alg».proof.Proof.Region1
import proofs.«416156_j1846835937281_3_alg».proof.Proof.Region2
import proofs.«416156_j1846835937281_3_alg».proof.Proof.RefEdge
import proofs.«416156_j1846835937281_3_alg».proof.Proof.RefAttn1
import proofs.«416156_j1846835937281_3_alg».proof.Proof.RefAttn2

set_option maxRecDepth 16384

noncomputable section

namespace Cert.KernelIdeal.Results

open Idealize.ShloMosaic Idealize.ShloMosaic.TcCoe Idealize.SL.Sem Idealize.ShloMosaic.StableHlo Idealize.ShloMosaic.ValueIdx
open Cert.KernelIdeal Cert.KernelIdeal.Gen Cert.KernelIdeal.Entry

variable (m : (ℓ : Loc nD τ sig) → Buf (Elt Ideal) ℓ) (ρ : Dev nD → PrngReg) (c : Dev nD)

/-! ## The arguments reach every region unchanged -/

theorem W2_arg5 : W2 m ρ c (Proc.devRef .tc main_arg5) = (m ((c.tc : Thread nD τ).loc main_arg5)) :=
  (W2_of_ne m ρ c main_arg5 (by decide)).trans (entry0_arg5 (W0 m ρ c))
theorem W2_arg6 : W2 m ρ c (Proc.devRef .tc main_arg6) = (m ((c.tc : Thread nD τ).loc main_arg6)) :=
  (W2_of_ne m ρ c main_arg6 (by decide)).trans (entry0_arg6 (W0 m ρ c))
theorem W2_arg7 : W2 m ρ c (Proc.devRef .tc main_arg7) = (m ((c.tc : Thread nD τ).loc main_arg7)) :=
  (W2_of_ne m ρ c main_arg7 (by decide)).trans (entry0_arg7 (W0 m ρ c))
theorem W2_arg8 : W2 m ρ c (Proc.devRef .tc main_arg8) = (m ((c.tc : Thread nD τ).loc main_arg8)) :=
  (W2_of_ne m ρ c main_arg8 (by decide)).trans (entry0_arg8 (W0 m ρ c))

theorem W8_arg5 : W8 m ρ c (Proc.devRef .tc main_arg5) = (m ((c.tc : Thread nD τ).loc main_arg5)) := by
  rw [W8_of_ne m ρ c main_arg5 (by decide), W7_eq, entry1_arg5, W2_arg5]
theorem W8_arg6 : W8 m ρ c (Proc.devRef .tc main_arg6) = (m ((c.tc : Thread nD τ).loc main_arg6)) := by
  rw [W8_of_ne m ρ c main_arg6 (by decide), W7_eq, entry1_arg6, W2_arg6]
theorem W8_arg8 : W8 m ρ c (Proc.devRef .tc main_arg8) = (m ((c.tc : Thread nD τ).loc main_arg8)) := by
  rw [W8_of_ne m ρ c main_arg8 (by decide), W7_eq, entry1_arg8, W2_arg8]

/-! ## The third result -/

/-- The third region's output is the reference's third result: the attention rows of the normalised item table
    against the normalised user table, over the item adjacency. -/
theorem res2 : (W13 m ρ c (Proc.devRef .tc main_v55) : S8192x64.Idx → EReal)
    = Cert.ReferenceIdeal.Read.val_main_v101 (F := Ideal) (m ((c.tc : Thread nD τ).loc main_arg5)) (m ((c.tc : Thread nD τ).loc main_arg6)) (m ((c.tc : Thread nD τ).loc main_arg8)) := by
  have e46 : (V12 m ρ c main_v46 : S8192x64.Idx → EReal) = Cert.ReferenceIdeal.Read.val_main_v78 (F := Ideal) (m ((c.tc : Thread nD τ).loc main_arg6)) := by
    show (W12 m ρ c (Proc.devRef .tc main_v46) : S8192x64.Idx → EReal) = _
    rw [W12_eq, entry2_v46, W8_arg6]
  have e53 : (V12 m ρ c main_v53 : S64x4096.Idx → EReal) = Cert.ReferenceIdeal.Read.val_main_v84 (F := Ideal) (m ((c.tc : Thread nD τ).loc main_arg5)) := by
    show (W12 m ρ c (Proc.devRef .tc main_v53) : S64x4096.Idx → EReal) = _
    rw [W12_eq, entry2_v53, W8_arg5]
  have e54 : (V12 m ρ c main_v54 : S4096x64.Idx → EReal) = (m ((c.tc : Thread nD τ).loc main_arg5)) := by
    show (W12 m ρ c (Proc.devRef .tc main_v54) : S4096x64.Idx → EReal) = _
    rw [W12_eq, entry2_v54, W8_arg5]
  have e8 : (V12 m ρ c main_arg8 : S8192x4096.Idx → EReal) = (m ((c.tc : Thread nD τ).loc main_arg8)) := by
    show (W12 m ρ c (Proc.devRef .tc main_arg8) : S8192x4096.Idx → EReal) = _
    rw [W12_eq, entry2_arg8, W8_arg8]
  refine (W13_arr m ρ c 4).trans ?_
  rw [Region2.arrAt (V12 m ρ) c, Cert.ReferenceIdeal.RefAttn2.attn_eq, e46, e53, e54, e8]

/-! ## The second result -/

/-- The second region's output, untouched afterwards, is the reference's second result: the attention rows of the
    normalised user table against the normalised item table, over the user adjacency. -/
theorem res1 : (W13 m ρ c (Proc.devRef .tc main_v40) : S4096x64.Idx → EReal)
    = Cert.ReferenceIdeal.Read.val_main_v73 (F := Ideal) (m ((c.tc : Thread nD τ).loc main_arg5)) (m ((c.tc : Thread nD τ).loc main_arg6)) (m ((c.tc : Thread nD τ).loc main_arg7)) := by
  have e31 : (V7 m ρ c main_v31 : S4096x64.Idx → EReal) = Cert.ReferenceIdeal.Read.val_main_v50 (F := Ideal) (m ((c.tc : Thread nD τ).loc main_arg5)) := by
    show (W7 m ρ c (Proc.devRef .tc main_v31) : S4096x64.Idx → EReal) = _
    rw [W7_eq, entry1_v31, W2_arg5]
  have e38 : (V7 m ρ c main_v38 : S64x8192.Idx → EReal) = Cert.ReferenceIdeal.Read.val_main_v56 (F := Ideal) (m ((c.tc : Thread nD τ).loc main_arg6)) := by
    show (W7 m ρ c (Proc.devRef .tc main_v38) : S64x8192.Idx → EReal) = _
    rw [W7_eq, entry1_v38, W2_arg6]
  have e39 : (V7 m ρ c main_v39 : S8192x64.Idx → EReal) = (m ((c.tc : Thread nD τ).loc main_arg6)) := by
    show (W7 m ρ c (Proc.devRef .tc main_v39) : S8192x64.Idx → EReal) = _
    rw [W7_eq, entry1_v39, W2_arg6]
  have e7 : (V7 m ρ c main_arg7 : S4096x8192.Idx → EReal) = (m ((c.tc : Thread nD τ).loc main_arg7)) := by
    show (W7 m ρ c (Proc.devRef .tc main_arg7) : S4096x8192.Idx → EReal) = _
    rw [W7_eq, entry1_arg7, W2_arg7]
  rw [W13_of_ne m ρ c main_v40 (by decide), W12_eq, entry2_v40]
  refine (W8_arr m ρ c 4).trans ?_
  rw [Region1.arrAt (V7 m ρ) c, Cert.ReferenceIdeal.RefAttn1.attn_eq, e31, e38, e39, e7]

/-! ## The first result -/

/-- The first region's output is the reference's message array. -/
theorem msg : (W2 m ρ c (Proc.devRef .tc main_v22) : S1250000x64.Idx → EReal)
    = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) := by
  have e18 : (V1 m ρ c main_v18 : S1250000x64.Idx → EReal)
      = Cert.ReferenceIdeal.Read.val_main_v18 (F := Ideal) (m ((c.tc : Thread nD τ).loc main_arg0)) (m ((c.tc : Thread nD τ).loc main_arg9)) := entry0_v18 (W0 m ρ c)
  have e19 : ∀ k : Fin 64, (V1 m ρ c main_v19 : S1x64.Idx → EReal) (ix2 0 k) = (m ((c.tc : Thread nD τ).loc main_arg1)) (ix2 k 0) := fun k => by
    refine (congrFun (entry0_v19 (W0 m ρ c)) (ix2 0 k)).trans ?_
    rw [Cert.ReferenceIdeal.Read.val_main_v23_apply]
    exact congrArg _ (funext fun a => Fin.ext (by match a with | ⟨0, _⟩ => rfl | ⟨1, _⟩ => rfl))
  have e20 : ∀ k : Fin 64, (V1 m ρ c main_v20 : S1x64.Idx → EReal) (ix2 0 k) = (m ((c.tc : Thread nD τ).loc main_arg2)) (ix1 k) := fun k => by
    refine (congrFun (entry0_v20 (W0 m ρ c)) (ix2 0 k)).trans ?_
    exact shapeCast_apply _ shapeCasts_S64_S1x64 (ix2 0 k) (ix1 k)
      (by rewrite [Shape.rowMajor_val_two, Shape.rowMajor_val_one]; show k.val = 0 * 64 + k.val; omega)
  have e3 : ∀ k : Fin 64, (V1 m ρ c main_arg3 : S1x64.Idx → EReal) (ix2 0 k) = (m ((c.tc : Thread nD τ).loc main_arg3)) (ix2 0 k) := fun k =>
    congrFun (entry0_arg3 (W0 m ρ c)) _
  have e21 : (V1 m ρ c main_v21 : S1x1.Idx → EReal) (ix2 0 0) = (m ((c.tc : Thread nD τ).loc main_arg4)) (ix1 0) := by
    refine (congrFun (entry0_v21 (W0 m ρ c)) (ix2 0 0)).trans ?_
    exact shapeCast_apply _ shapeCasts_S1_S1x1 (ix2 0 0) (ix1 0)
      (by rewrite [Shape.rowMajor_val_two, Shape.rowMajor_val_one]; rfl)
  refine (W2_arr m ρ c 5).trans ?_
  rw [Region0.arrAt (V1 m ρ) c, Cert.ReferenceIdeal.RefEdge.msg_eq, e18, e21]
  simp only [e19, e20, e3]

/-- The scatter-add of the first region's output over the segment ids, untouched afterwards, is the reference's
    first result. -/
theorem res0 : (W13 m ρ c (Proc.devRef .tc main_v25) : S100000x64.Idx → EReal)
    = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) := by
  have e3 : W2 m ρ c (Proc.devRef .tc main_v3) = Cert.ReferenceIdeal.Read.val_main_v3 (F := Ideal) (m ((c.tc : Thread nD τ).loc main_arg9)) :=
    (W2_of_ne m ρ c main_v3 (by decide)).trans (entry0_v3 (W0 m ρ c))
  rw [W13_of_ne m ρ c main_v25 (by decide), W12_eq, entry2_v25, W8_of_ne m ρ c main_v25 (by decide), W7_eq, entry1_v25,
    e3, msg]
  rfl

end Cert.KernelIdeal.Results

end
-- ==== Proof.lean ====
/-
  The certificate's claims.

  The kernel program is three regions among plain array operations: a gated message per edge (the pooled mean of
  the gathered rows' product through a two-layer gate), scatter-added over the edges' targets, and two attention
  passes — cosine similarities of the normalised embedding tables times a sparse adjacency, masked where zero,
  soft-maxed row by row, applied to the attended table. The reference computes the same three results with whole
  arrays. Over the extended reals the two agree operation by operation: a lane sum is the host's sum from zero, a
  block product into zeros is the host's product, a change of float format is the identity, the logistic function
  is `1 / (1 + e⁻ˣ)`, and a row's result depends on its own row of the tiled arrays only. No law used needs a
  finite input, so the precondition is never opened.

  The three frames are the generated ones (the reference's is its generated run with the results dropped);
  the idealization rewrote nothing, so `preserves` is trivial; `algebraic` puts the kernel's run, its results
  read back through the fold of its segments, beside the reference's run.
-/
import proofs.«416156_j1846835937281_3_alg».proof.Defs
import proofs.«416156_j1846835937281_3_alg».proof.Proof.Gen.Kernel
import proofs.«416156_j1846835937281_3_alg».proof.Proof.Gen.Kernel.Skeleton
import proofs.«416156_j1846835937281_3_alg».proof.Proof.Gen.Kernel.Launch
import proofs.«416156_j1846835937281_3_alg».proof.Proof.Gen.Kernel.Points
import proofs.«416156_j1846835937281_3_alg».proof.Proof.Gen.Kernel.Frame
import proofs.«416156_j1846835937281_3_alg».proof.Proof.Gen.KernelIdeal
import proofs.«416156_j1846835937281_3_alg».proof.Proof.Gen.KernelIdeal.Skeleton
import proofs.«416156_j1846835937281_3_alg».proof.Proof.Gen.KernelIdeal.Launch
import proofs.«416156_j1846835937281_3_alg».proof.Proof.Gen.KernelIdeal.Points
import proofs.«416156_j1846835937281_3_alg».proof.Proof.Gen.KernelIdeal.Frame
import proofs.«416156_j1846835937281_3_alg».proof.Proof.Gen.ReferenceIdeal
import proofs.«416156_j1846835937281_3_alg».proof.Proof.Gen.ReferenceIdeal.Run
import proofs.«416156_j1846835937281_3_alg».proof.Proof.Gen.ReferenceIdeal.Read
import proofs.«416156_j1846835937281_3_alg».proof.Proof.Gen.Pre_finite_inputs
import proofs.«416156_j1846835937281_3_alg».proof.Proof.KRun
import proofs.«416156_j1846835937281_3_alg».proof.Proof.Results
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs run; the kernel's results, read back through its segments, are the reference's terms of the
    arguments, which agree. -/
theorem algebraic : Cert.algebraic_KernelIdeal_ReferenceIdeal := by
  intro m ρ m' ρ' _ hagree
  refine ⟨fun c => Cert.KernelIdeal.Gen.W13 m ρ c (Proc.devRef .tc Cert.KernelIdeal.main_v25),
    fun c => Cert.KernelIdeal.Gen.W13 m ρ c (Proc.devRef .tc Cert.KernelIdeal.main_v40),
    fun c => Cert.KernelIdeal.Gen.W13 m ρ c (Proc.devRef .tc Cert.KernelIdeal.main_v55),
    Cert.KernelIdeal.KRun.run_results (F := Ideal) m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9⟩ := hagree c
  refine ⟨(h c).1.trans ?_, (h c).2.1.trans ?_, (h c).2.2.1.trans ?_, (h c).2.2.2⟩
  · rw [Cert.ReferenceIdeal.Read.val_main_v45_eq, h0, h1, h2, h3, h4, h9]
    exact (Cert.KernelIdeal.Results.res0 m ρ c).symm
  · rw [Cert.ReferenceIdeal.Read.val_main_v73_eq, h5, h6, h7]
    exact (Cert.KernelIdeal.Results.res1 m ρ c).symm
  · rw [Cert.ReferenceIdeal.Read.val_main_v101_eq, h5, h6, h8]
    exact (Cert.KernelIdeal.Results.res2 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
